-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x2048 : Shape := ⟨2, ![4096, 2048]⟩
abbrev S4096x32 : Shape := ⟨2, ![4096, 32]⟩
abbrev S4096 : Shape := ⟨1, ![4096]⟩
abbrev S128 : Shape := ⟨1, ![128]⟩
abbrev S4096x128 : Shape := ⟨2, ![4096, 128]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : IVec S128 32) (main_arg6 : FVec F S4096x128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x128 .f32 := Host.absf main_arg6
  let main_cst_6 : FVec F S_ .f32 := constant S_ .f32 0x7F800000#32
  let main_v20 : FVec F S4096x128 .f32 := broadcastInDim S4096x128 ![] bcast_S_S4096x128 main_cst_6
  let main_v21 : IVec S4096x128 1 := cmpf .olt main_v19 main_v20
  let main_c_7 : IVec S_ 1 := constantI S_ 1 1#1
  let main_v22 : IVec S_ 1 := (fun x v => Host.reduce IntOp.andi x v reducesTo_S4096x128_S_d0_1 h_S_) main_v21 main_c_7
  let main_v23 : IVec S_ 1 := andi main_v18 main_v22
  let main_c_8 : IVec S_ 32 := constantI S_ 32 0#32
  let main_v24 : IVec S128 32 := broadcastInDim S128 ![] bcast_S_S128 main_c_8
  let main_v25 : IVec S128 1 := cmpi .sge main_arg5 main_v24
  let main_c_9 : IVec S_ 1 := constantI S_ 1 1#1
  let main_v26 : IVec S_ 1 := (fun x v => Host.reduce IntOp.andi x v reducesTo_S128_S_d0 h_S_) main_v25 main_c_9
  let main_v27 : IVec S_ 1 := andi main_v23 main_v26
  let main_c_10 : IVec S_ 32 := constantI S_ 32 4096#32
  let main_v28 : IVec S128 32 := broadcastInDim S128 ![] bcast_S_S128 main_c_10
  let main_v29 : IVec S128 1 := cmpi .slt main_arg5 main_v28
  let main_c_11 : IVec S_ 1 := constantI S_ 1 1#1
  let main_v30 : IVec S_ 1 := (fun x v => Host.reduce IntOp.andi x v reducesTo_S128_S_d0 h_S_) main_v29 main_c_11
  let main_v31 : IVec S_ 1 := andi main_v27 main_v30
  main_v31

def fn {F : FTy → Type} [FloatOps F] (main_arg0 : FVec F S8x2048x4096 .f32) (main_arg1 : IVec S4096x2048 32) (main_arg2 : FVec F S4096x32 .f32) (main_arg3 : FVec F S4096x32 .f32) (main_arg4 : FVec F S4096 .f32) (main_arg5 : IVec S128 32) (main_arg6 : FVec F S4096x128 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S8x2048x4096 : Shape := ⟨3, ![8, 2048, 4096]⟩
abbrev S4096x2048 : Shape := ⟨2, ![4096, 2048]⟩
abbrev S4096x32 : Shape := ⟨2, ![4096, 32]⟩
abbrev S4096 : Shape := ⟨1, ![4096]⟩
abbrev S128 : Shape := ⟨1, ![128]⟩
abbrev S4096x128 : Shape := ⟨2, ![4096, 128]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S128x1 : Shape := ⟨2, ![128, 1]⟩
abbrev S1x4096 : Shape := ⟨2, ![1, 4096]⟩
abbrev S128x4096 : Shape := ⟨2, ![128, 4096]⟩
abbrev S16384x4096 : Shape := ⟨2, ![16384, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 44
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S4096x2048, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S128, .i32⟩
  | .hbm, ⟨6, _⟩ => ⟨S4096x128, .f32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S4096x2048, .f32⟩
  | .hbm, ⟨11, _⟩ => ⟨S_, .i32⟩
  | .hbm, ⟨12, _⟩ => ⟨S4096x2048, .i32⟩
  | .hbm, ⟨13, _⟩ => ⟨S4096x2048, .i32⟩
  | .hbm, ⟨14, _⟩ => ⟨S_, .i32⟩
  | .hbm, ⟨15, _⟩ => ⟨S4096x2048, .i32⟩
  | .hbm, ⟨16, _⟩ => ⟨S4096x2048, .i32⟩
  | .hbm, ⟨17, _⟩ => ⟨S4096x2048, .f32⟩
  | .hbm, ⟨18, _⟩ => ⟨S4096x2048x1, .f32⟩
  | .hbm, ⟨19, _⟩ => ⟨S4096x2048x1, .f32⟩
  | .hbm, ⟨20, _⟩ => ⟨S4096x2048x2, .f32⟩
  | .hbm, ⟨21, _⟩ => ⟨S4096x4096, .f32⟩
  | .hbm, ⟨22, _⟩ => ⟨S_, .f32⟩
  | .hbm, ⟨23, _⟩ => ⟨S4096x32, .f32⟩
  | .hbm, ⟨24, _⟩ => ⟨S4096x32, .f32⟩
  | .hbm, ⟨25, _⟩ => ⟨S4096x32x128, .f32⟩
  | .hbm, ⟨26, _⟩ => ⟨S4096x4096, .f32⟩
  | .hbm, ⟨27, _⟩ => ⟨S4096x32x128, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S128x1, .i32⟩
  | .hbm, ⟨32, _⟩ => ⟨S1x4096, .i32⟩
  | .hbm, ⟨33, _⟩ => ⟨S128x4096, .i32⟩
  | .hbm, ⟨34, _⟩ => ⟨S128x4096, .i32⟩
  | .hbm, ⟨35, _⟩ => ⟨S128x4096, .i1⟩
  | .hbm, ⟨36, _⟩ => ⟨S128x4096, .f32⟩
  | .hbm, ⟨37, _⟩ => ⟨S4096x4096, .f32⟩
  | .hbm, ⟨38, _⟩ => ⟨S4096x4096, .f32⟩
  | .hbm, ⟨39, _⟩ => ⟨S4096x4096, .bf16⟩
  | .hbm, ⟨40, _⟩ => ⟨S16384x4096, .f32⟩
  | .hbm, ⟨41, _⟩ => ⟨S1x4096, .f32⟩
  | .hbm, ⟨42, _⟩ => ⟨S16384x4096, .f32⟩
  | .hbm, ⟨43, _⟩ => ⟨S8x2048x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  bcast_S_S4096x32 : S_.BroadcastsInDim S4096x32 (![] : Fin 0 → Fin S4096x32.rank)
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S128_S128x1_0 : S128.BroadcastsInDim S128x1 (![0] : Fin 1 → Fin S128x1.rank)
  bcast_S128x1_S128x4096_0_1 : S128x1.BroadcastsInDim S128x4096 (![0, 1] : Fin 2 → Fin S128x4096.rank)
  bcast_S1x4096_S128x4096_0_1 : S1x4096.BroadcastsInDim S128x4096 (![0, 1] : Fin 2 → Fin S128x4096.rank)
  bitsLt_bf16_f32 : FTy.bits .bf16 < FTy.bits .f32
  shapeCasts_S8x2048x4096_S16384x4096 : S8x2048x4096.ShapeCasts S16384x4096
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S8x2048x4096 : S16384x4096.ShapeCasts S8x2048x4096
  dot_S4096x128_S128x4096_S4096x4096_1_0_0_1_n_n_wf : DotDims.WF S4096x128 S128x4096 S4096x4096 [1] [0] [0] [1] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x4096.size a
  hwx0_0 : ∀ i : grid0.Coords, EltTy.bits .f32 = 32 ∨ (Rect.block (s := S16384x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S16384x4096.size a
  hwx0_3 : ∀ i : grid0.Coords, EltTy.bits .f32 = 32 ∨ (Rect.block (s := S16384x4096) S2048x1024.size (cc0_transform_3 i) (hinb0_3 i)).WholeWords (EltTy.packing .f32)

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_v24) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x2048 : Shape := ⟨2, ![4096, 2048]⟩
abbrev S4096x32 : Shape := ⟨2, ![4096, 32]⟩
abbrev S4096 : Shape := ⟨1, ![4096]⟩
abbrev S128 : Shape := ⟨1, ![128]⟩
abbrev S4096x128 : Shape := ⟨2, ![4096, 128]⟩
abbrev S_ : Shape := ⟨0, ![]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S4096x32x128 : Shape := ⟨3, ![4096, 32, 128]⟩
abbrev S4096x32x1 : Shape := ⟨3, ![4096, 32, 1]⟩
abbrev S1x1x4096 : Shape := ⟨3, ![1, 1, 4096]⟩
abbrev S128x1 : Shape := ⟨2, ![128, 1]⟩
abbrev S8x2048x128 : Shape := ⟨3, ![8, 2048, 128]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x2048, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S128, .i32⟩
  | .hbm, ⟨6, _⟩ => ⟨S4096x128, .f32⟩
  | .hbm, ⟨7, _⟩ => ⟨S_, .i32⟩
  | .hbm, ⟨8, _⟩ => ⟨S4096x2048, .i32⟩
  | .hbm, ⟨9, _⟩ => ⟨S4096x2048, .i32⟩
  | .hbm, ⟨10, _⟩ => ⟨S_, .i32⟩
  | .hbm, ⟨11, _⟩ => ⟨S4096x2048, .i32⟩
  | .hbm, ⟨12, _⟩ => ⟨S4096x2048, .i32⟩
  | .hbm, ⟨13, _⟩ => ⟨S_, .i32⟩
  | .hbm, ⟨14, _⟩ => ⟨S4096x2048, .i32⟩
  | .hbm, ⟨15, _⟩ => ⟨S4096x2048, .i32⟩
  | .hbm, ⟨16, _⟩ => ⟨S4096x2048x1, .i32⟩
  | .hbm, ⟨17, _⟩ => ⟨S4096x2048x1, .i32⟩
  | .hbm, ⟨18, _⟩ => ⟨S4096x2048x2, .i32⟩
  | .hbm, ⟨19, _⟩ => ⟨S4096x4096, .i32⟩
  | .hbm, ⟨20, _⟩ => ⟨S4096x4096, .f32⟩
  | .hbm, ⟨21, _⟩ => ⟨S4096x32x128, .f32⟩
  | .hbm, ⟨22, _⟩ => ⟨S_, .f32⟩
  | .hbm, ⟨23, _⟩ => ⟨S4096x32, .f32⟩
  | .hbm, ⟨24, _⟩ => ⟨S4096x32, .f32⟩
  | .hbm, ⟨25, _⟩ => ⟨S4096x32x1, .f32⟩
  | .hbm, ⟨26, _⟩ => ⟨S4096x32x1, .f32⟩
  | .hbm, ⟨27, _⟩ => ⟨S4096x32x128, .f32⟩
  | .hbm, ⟨28, _⟩ => ⟨S4096x32x128, .f32⟩
  | .hbm, ⟨29, _⟩ => ⟨S4096x32x128, .f32⟩
  | .hbm, ⟨30, _⟩ => ⟨S4096x32x128, .f32⟩
  | .hbm, ⟨31, _⟩ => ⟨S4096x4096, .f32⟩
  | .hbm, ⟨32, _⟩ => ⟨S8x2048x4096, .f32⟩
  | .hbm, ⟨33, _⟩ => ⟨S1x1x4096, .f32⟩
  | .hbm, ⟨34, _⟩ => ⟨S8x2048x4096, .f32⟩
  | .hbm, ⟨35, _⟩ => ⟨S8x2048x4096, .f32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S8x2048x128, .f32⟩
  | .hbm, ⟨45, _⟩ => ⟨S8x2048x4096, .f32⟩
  | .hbm, ⟨46, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_c_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]

class Facts₀ : Prop where
  bcast_S_S4096x2048 : S_.BroadcastsInDim S4096x2048 (![] : Fin 0 → Fin S4096x2048.rank)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4096x4096_S4096x32x128 : S4096x4096.ShapeCasts S4096x32x128
  bcast_S_S4096x32 : S_.BroadcastsInDim S4096x32 (![] : Fin 0 → Fin S4096x32.rank)
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S128 : S_.BroadcastsInDim S128 (![] : Fin 0 → Fin S128.rank)
  bcast_S128_S128x1_0 : S128.BroadcastsInDim S128x1 (![0] : Fin 1 → Fin S128x1.rank)
  dot_S8x2048x4096_S4096x4096_S8x2048x4096_2_1_01_0_n_n_wf : DotDims.WF S8x2048x4096 S4096x4096 S8x2048x4096 [2] [1] [0, 1] [0] [] []
  gather_S8x2048x4096_S128x1_S8x2048x128_01_2_n_n_2_1_820481_wf : GatherDims.WF S8x2048x4096 S128x1 S8x2048x128 [0, 1] [2] [] [2] [] 1 ![8, 2048, 1]
  dot_S8x2048x128_S4096x128_S8x2048x4096_2_1_01_0_n_n_wf : DotDims.WF S8x2048x128 S4096x128 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf
def gather_S8x2048x4096_S128x1_S8x2048x128_01_2_n_n_2_1_820481 : GatherDims S8x2048x4096 S128x1 S8x2048x128 where
  offsetDims := [0, 1]
  collapsedSliceDims := [2]
  operandBatchingDims := []
  startIndicesBatchingDims := []
  startIndexMap := [2]
  indexVectorDim := 1
  sliceSizes := ![8, 2048, 1]
  wf := gather_S8x2048x4096_S128x1_S8x2048x128_01_2_n_n_2_1_820481_wf
def dot_S8x2048x128_S4096x128_S8x2048x4096_2_1_01_0_n_n : DotDims S8x2048x128 S4096x128 S8x2048x4096 where
  lhsContracting := [2]
  rhsContracting := [1]
  lhsNonContracting := [0, 1]
  rhsNonContracting := [0]
  lhsBatch := []
  rhsBatch := []
  wf := dot_S8x2048x128_S4096x128_S8x2048x4096_2_1_01_0_n_n_wf

class Facts : Prop extends Facts₀ where

variable [Facts]
-- ==== Proof.Spec.lean ====
/-
  The mathematics of the int4 linear layer, with no program in sight.

  Inputs: activations x[b,s,l], packed nibbles qw[o,c] (two 4-bit codes per word: the low code is column 2c, the high
  code column 2c+1), per-group scales sc[o,g] and zero points zp[o,g] (a group is 128 consecutive columns), a bias[o],
  128 outlier column numbers idx[h] and their high-precision weights hw[o,h].

  The dequantized weight is  deq[o,l] = (code[o,l] - zp[o,l/128]) * max(sc[o,l/128], eps).

  One side folds the outlier correction into the weight through a one-hot matrix,
      W[o,l] = deq[o,l] + sum_h hw[o,h] * [idx[h] = l],      out = sum_l x[l] * W[o,l] + bias[o],
  the other adds the correction to the product,
      out = (sum_l x[l] * deq[o,l] + bias[o]) + sum_h x[col(idx[h])] * hw[o,h],
  where col wraps a negative number by 4096 and clamps into [0, 4095].  For column numbers in [0, 4096) col is the
  identity and the one-hot row has its single one at idx[h]; then the two are equal by distributing x over the sum and
  exchanging the two sums — valid when every factor is a real number, which is where finiteness of the inputs is used.
-/
import Idealize.ShloMosaic.Lib.ValueIdx
import Idealize.ShloMosaic.PureOps.Ideal.Laws

noncomputable section

open scoped BigOperators
open Idealize.ShloMosaic Idealize.ShloMosaic.ValueIdx

namespace Cert.Q4

/-- The literal shapes of the seven inputs. -/
abbrev SX : Shape := ⟨3, ![8, 2048, 4096]⟩
abbrev SQ : Shape := ⟨2, ![4096, 2048]⟩
abbrev SG : Shape := ⟨2, ![4096, 32]⟩
abbrev SB : Shape := ⟨1, ![4096]⟩
abbrev SI : Shape := ⟨1, ![128]⟩
abbrev SH : Shape := ⟨2, ![4096, 128]⟩

/-- The lower clamp of the scales, as both programs print it. -/
abbrev eps : EReal := Ideal.ofBits .f32 0x3089705F#32

/-- Column `l`'s word is word `l / 2` of the row. -/
abbrev half (l : Fin 4096) : Fin 2048 := ⟨l.val / 2, by have := l.isLt; omega⟩
/-- Column `l`'s group is group `l / 128` of the row. -/
abbrev grp (l : Fin 4096) : Fin 32 := ⟨l.val / 128, by have := l.isLt; omega⟩

/-- The 4-bit code of column `l` of row `o`: the low four bits of the word for an even column, the next four for an odd one. -/
def code (qw : SQ.Idx → BitVec 32) (o l : Fin 4096) : BitVec 32 :=
  if l.val % 2 = 0 then IntOp.andi (qw (ix2 o (half l))) 15#32
  else IntOp.andi (IntOp.shrsi .host (qw (ix2 o (half l))) 4#32) 15#32

/-- The dequantized weight. -/
def deq (qw : SQ.Idx → BitVec 32) (sc zp : SG.Idx → EReal) (o l : Fin 4096) : EReal :=
  ((((code qw o l).toInt : ℝ) : EReal) - zp (ix2 o (grp l))) * max (sc (ix2 o (grp l))) eps

/-- The one-hot matrix's entry: the comparison bit of `idx[h]` against the column number, read as a number. -/
def hot (idx : SI.Idx → BitVec 32) (h : Fin 128) (l : Fin 4096) : EReal :=
  ((((IntOp.cmpi .eq (idx (ix1 h)) (BitVec.ofNat 32 l.val)).toNat : ℝ)) : EReal)

/-- The weight with the outlier correction folded in. -/
def wfold (qw : SQ.Idx → BitVec 32) (sc zp : SG.Idx → EReal) (idx : SI.Idx → BitVec 32) (hw : SH.Idx → EReal)
    (o l : Fin 4096) : EReal :=
  deq qw sc zp o l + ∑ h : Fin 128, hw (ix2 o h) * hot idx h l

/-- The result with the correction folded into the weight. -/
def outFold (x : SX.Idx → EReal) (qw : SQ.Idx → BitVec 32) (sc zp : SG.Idx → EReal) (bias : SB.Idx → EReal)
    (idx : SI.Idx → BitVec 32) (hw : SH.Idx → EReal) (b : Fin 8) (s : Fin 2048) (o : Fin 4096) : EReal :=
  (∑ l : Fin 4096, x (ix3 b s l) * wfold qw sc zp idx hw o l) + bias (ix1 o)

/-- A column number as the gather reads it: a negative one wrapped by 4096, then clamped into [0, 4095]. -/
def col (v : BitVec 32) : Fin 4096 :=
  ⟨min (Scalar.select (IntOp.cmpi .slt v 0#32) (IntOp.addi v 4096#32) v).toInt.toNat 4095, by omega⟩

/-- The result with the correction added to the product. -/
def outAdd (x : SX.Idx → EReal) (qw : SQ.Idx → BitVec 32) (sc zp : SG.Idx → EReal) (bias : SB.Idx → EReal)
    (idx : SI.Idx → BitVec 32) (hw : SH.Idx → EReal) (b : Fin 8) (s : Fin 2048) (o : Fin 4096) : EReal :=
  ((∑ l : Fin 4096, x (ix3 b s l) * deq qw sc zp o l) + bias (ix1 o))
    + ∑ h : Fin 128, x (ix3 b s (col (idx (ix1 h)))) * hw (ix2 o h)

end Cert.Q4

end
-- ==== Proof.Law.lean ====
/-
  The law that joins the two arrangements of the outlier correction.

  Over the reals, with pos h the column the h-th correction belongs to,
      sum_l x_l * (w_l + sum_h c_h * [pos h = l]) = sum_l x_l * w_l + sum_h x_(pos h) * c_h :
  distribute x_l over the inner sum, exchange the two sums, and collapse the sum over l against the indicator.
  The extended reals are not a ring (a product does not distribute over a sum of opposite infinities), so the law
  is proved for families of real numbers and transported along the coercion.
-/
import proofs.«425230_j13048110645378_3_alg».proof.Proof.Spec
import Idealize.ShloMosaic.Lib.StableHlo.Predicate

noncomputable section

open scoped BigOperators
open Idealize.ShloMosaic Idealize.ShloMosaic.ValueIdx

namespace Cert.Q4

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law, for real families inside the extended reals. -/
theorem fold_law {L H : Type} [Fintype L] [Fintype H] [DecidableEq L]
    (x w : L → EReal) (c : H → EReal) (ind : H → L → EReal) (pos : H → L) (bias : EReal)
    (hx : ∀ l, ∃ r : ℝ, x l = r) (hw : ∀ l, ∃ r : ℝ, w l = r) (hc : ∀ h, ∃ r : ℝ, c h = r)
    (hind : ∀ h l, ind h l = if pos h = l then 1 else 0) :
    (∑ l, x l * (w l + ∑ h, c h * ind h l)) + bias = ((∑ l, x l * w l) + bias) + ∑ h, x (pos h) * c h := by
  choose x' hx using hx
  choose w' hw using hw
  choose c' hc using hc
  have e0 : ∀ l, ∑ h, c h * ind h l = ((∑ h, c' h * (if pos h = l then (1 : ℝ) else 0) : ℝ) : EReal) := by
    intro l
    rw [coe_sum]
    refine Finset.sum_congr rfl fun h _ => ?_
    rw [hc, hind]
    split_ifs <;> simp
  have e1 : ∀ l, x l * (w l + ∑ h, c h * ind h l)
      = ((x' l * (w' l + ∑ h, c' h * (if pos h = l then (1 : ℝ) else 0)) : ℝ) : EReal) := by
    intro l
    rw [e0, hx, hw, ← EReal.coe_add, ← EReal.coe_mul]
  have e2 : ∀ l, x l * w l = ((x' l * w' l : ℝ) : EReal) := fun l => by rw [hx, hw, EReal.coe_mul]
  have e3 : ∀ h, x (pos h) * c h = ((x' (pos h) * c' h : ℝ) : EReal) := fun h => by rw [hx, hc, EReal.coe_mul]
  simp only [e1, e2, e3, ← coe_sum]
  rw [add_right_comm, ← EReal.coe_add]
  congr 2
  simp only [mul_add, Finset.sum_add_distrib, Finset.mul_sum]
  congr 1
  rw [Finset.sum_comm]
  refine Finset.sum_congr rfl fun h _ => ?_
  simp [mul_ite, Finset.sum_ite_eq, mul_comm]

/-- A column number in [0, 4096) is read by the gather as itself. -/
theorem col_of_lt (v : BitVec 32) (hv : v.toNat < 4096) : col v = ⟨v.toNat, hv⟩ := by
  have hnot : ¬ IntOp.cmpi .slt v 0#32 = 1#1 := by
    rw [StableHlo.Predicate.slt_iff_toNat (by omega) (by decide)]
    simp
  have hti : v.toInt = v.toNat := StableHlo.Predicate.toInt_eq_toNat_of_lt (by omega)
  unfold col
  apply Fin.ext
  show min (Scalar.select (IntOp.cmpi .slt v 0#32) (IntOp.addi v 4096#32) v).toInt.toNat 4095 = v.toNat
  rw [eq_zero_of_ne_one hnot, select_zero, hti]
  simp only [Int.toNat_natCast]
  omega

/-- The one-hot entry is the indicator of the column the gather reads. -/
theorem hot_eq (idx : SI.Idx → BitVec 32) (h : Fin 128) (l : Fin 4096) (hv : (idx (ix1 h)).toNat < 4096) :
    hot idx h l = if col (idx (ix1 h)) = l then 1 else 0 := by
  unfold hot
  rw [col_of_lt _ hv]
  by_cases he : idx (ix1 h) = BitVec.ofNat 32 l.val
  · rw [StableHlo.Predicate.cmpi_eq_iff.mpr he, if_pos]
    · simp
    · apply Fin.ext
      show (idx (ix1 h)).toNat = l.val
      rw [he, BitVec.toNat_ofNat]
      have := l.isLt
      omega
  · have hne : ¬ IntOp.cmpi .eq (idx (ix1 h)) (BitVec.ofNat 32 l.val) = 1#1 := fun hc => he (StableHlo.Predicate.cmpi_eq_iff.mp hc)
    rw [eq_zero_of_ne_one hne, if_neg]
    · simp
    · intro hc
      apply he
      apply BitVec.eq_of_toNat_eq
      rw [BitVec.toNat_ofNat]
      have h1 : (idx (ix1 h)).toNat = l.val := congrArg Fin.val hc
      have := l.isLt
      omega

/-- The clamp's lower bound is a real number. -/
theorem eps_real : ∃ r : ℝ, eps = r := by
  refine ⟨(9007199 : ℝ) * ((2 : ℝ) ^ 53)⁻¹, ?_⟩
  unfold eps
  simp [Ideal.ofBits, Ideal.ieee]

/-- With real scales and zero points the dequantized weight is a real number. -/
theorem deq_real (qw : SQ.Idx → BitVec 32) (sc zp : SG.Idx → EReal) (hsc : ∀ i, ∃ r : ℝ, sc i = r)
    (hzp : ∀ i, ∃ r : ℝ, zp i = r) (o l : Fin 4096) : ∃ r : ℝ, deq qw sc zp o l = r := by
  obtain ⟨s, hs⟩ := hsc (ix2 o (grp l))
  obtain ⟨z, hz⟩ := hzp (ix2 o (grp l))
  obtain ⟨e, he⟩ := eps_real
  refine ⟨(((code qw o l).toInt : ℝ) - z) * max s e, ?_⟩
  unfold deq
  rw [hs, hz, he, ← EReal.coe_sub, ← EReal.coe_strictMono.monotone.map_max, ← EReal.coe_mul]

/-- THE TWO ARRANGEMENTS AGREE when the float inputs are real and the column numbers lie in [0, 4096). -/
theorem outFold_eq_outAdd (x : SX.Idx → EReal) (qw : SQ.Idx → BitVec 32) (sc zp : SG.Idx → EReal) (bias : SB.Idx → EReal)
    (idx : SI.Idx → BitVec 32) (hw : SH.Idx → EReal)
    (hx : ∀ i, ∃ r : ℝ, x i = r) (hsc : ∀ i, ∃ r : ℝ, sc i = r) (hzp : ∀ i, ∃ r : ℝ, zp i = r)
    (hhw : ∀ i, ∃ r : ℝ, hw i = r) (hidx : ∀ h : Fin 128, (idx (ix1 h)).toNat < 4096)
    (b : Fin 8) (s : Fin 2048) (o : Fin 4096) :
    outFold x qw sc zp bias idx hw b s o = outAdd x qw sc zp bias idx hw b s o := by
  unfold outFold outAdd wfold
  exact fold_law (fun l => x (ix3 b s l)) (fun l => deq qw sc zp o l) (fun h => hw (ix2 o h)) (hot idx)
    (fun h => col (idx (ix1 h))) (bias (ix1 o)) (fun l => hx _) (fun l => deq_real qw sc zp hsc hzp o l) (fun h => hhw _)
    (fun h l => hot_eq idx h l (hidx h))

end Cert.Q4

end
-- ==== Proof.PreFacts.lean ====
/-
  THE PRECONDITION DECODED. The certificate's precondition is a printed predicate: a conjunction of seven "all entries
  satisfy …" clauses, each an and-reduction of an elementwise comparison, joined by bitwise and on one-bit words.
  That the predicate is 1 says: every entry of the five float inputs has |x| < +∞ — at the ideal values, x is a real
  number, neither infinity nor junk — and every entry v of the integer index input has 0 ≤ v and v < 4096 read signed,
  hence v < 4096 read unsigned.
-/
import proofs.«425230_j13048110645378_3_alg».proof.Pre_finite_inputs
import Idealize.ShloMosaic.Lib.ReduceAll
import Idealize.ShloMosaic.Lib.StableHlo.Predicate
import Idealize.ShloMosaic.Lib.ValueIdx
import Idealize.ShloMosaic.PureOps.Ideal.Laws

noncomputable section

namespace Cert.Q4

open Idealize.ShloMosaic

/-- The rank-0 shape has one index. -/
instance subsingleton_S_ : Subsingleton Cert.Pre_finite_inputs.S_.Idx := ⟨fun a b => funext fun d => d.elim0⟩

/-- The f32 pattern 0x7F800000 denotes +∞. -/
theorem ofBits_inf : Ideal.ofBits .f32 0x7F800000#32 = (⊤ : EReal) := by simp [Ideal.ofBits, Ideal.ieee]

/-- An extended real whose absolute value max x (-x) is below +∞ is a real number: at -∞ the maximum is -(-∞) = +∞, at +∞
    it is +∞ itself. -/
theorem real_of_abs_lt_top (x : EReal) (h : Ideal.cmp .olt (max x (-x)) (⊤ : EReal) = 1#1) : ∃ r : ℝ, x = (r : EReal) := by
  simp only [Ideal.cmp, StableHlo.Predicate.ofBool_eq_one_iff, decide_eq_true_eq] at h
  induction x using EReal.rec with
  | bot => simp at h
  | top => simp at h
  | coe r => exact ⟨r, rfl⟩

/-- One float clause: an and-reduction over all axes of "|x| < the broadcast +∞ pattern" that is 1 makes every entry real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x) (broadcastInDim s ![] hb (constant Cert.Pre_finite_inputs.S_ .f32 0x7F800000#32)))
          (constantI Cert.Pre_finite_inputs.S_ 1 1#1) hr h0 ValueIdx.ix0 = 1#1) :
    ∀ i, ∃ r : ℝ, x i = (r : EReal) := by
  intro i
  have hi := Host.reduce_andi_all _ _ hr h0 ValueIdx.ix0 e i
  apply real_of_abs_lt_top
  rw [← ofBits_inf]
  exact hi

/-- A 32-bit word that is ≥ 0 and < 4096 read signed is < 4096 read unsigned. -/
theorem toNat_lt_of_signed (v : BitVec 32) (h0 : IntOp.cmpi .sge v 0#32 = 1#1) (h1 : IntOp.cmpi .slt v 4096#32 = 1#1) :
    v.toNat < 4096 := by
  rw [IntOp.cmpi_sge] at h0
  rw [IntOp.cmpi_slt] at h1
  have e0 : (0#32 : BitVec 32).toInt = 0 := by decide
  have e1 : (4096#32 : BitVec 32).toInt = 4096 := by decide
  rw [e0] at h0
  rw [e1] at h1
  have hlt := v.isLt
  rw [BitVec.toInt_eq_toNat_cond] at h0 h1
  split at h0 <;> omega

/-- THE PRECONDITION DECODED: the five float inputs are real-valued and every index entry lies in [0, 4096). -/
theorem pre_decode [Cert.Pre_finite_inputs.Facts]
    (a0 : FVec Ideal Cert.Pre_finite_inputs.S8x2048x4096 .f32) (a1 : IVec Cert.Pre_finite_inputs.S4096x2048 32)
    (a2 a3 : FVec Ideal Cert.Pre_finite_inputs.S4096x32 .f32) (a4 : FVec Ideal Cert.Pre_finite_inputs.S4096 .f32)
    (a5 : IVec Cert.Pre_finite_inputs.S128 32) (a6 : FVec Ideal Cert.Pre_finite_inputs.S4096x128 .f32)
    (h : Cert.Pre_finite_inputs.fn (F := Ideal) a0 a1 a2 a3 a4 a5 a6 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a6 i = (r : EReal)) ∧ (∀ i, (a5 i).toNat < 4096) := by
  have e := congrFun h ValueIdx.ix0
  unfold Cert.Pre_finite_inputs.fn Cert.Pre_finite_inputs.fn_part1 at e
  dsimp only at e
  -- the six joins: the predicate is 1 exactly when each of the seven clauses is
  simp only [andi, IntOp.andi_eq_one] at e
  obtain ⟨⟨⟨⟨⟨⟨e0, e2⟩, e3⟩, e4⟩, e6⟩, e5lo⟩, e5hi⟩ := e
  refine ⟨real_of_all a0 _ _ _ e0, real_of_all a2 _ _ _ e2, real_of_all a3 _ _ _ e3, real_of_all a4 _ _ _ e4,
    real_of_all a6 _ _ _ e6, fun i => ?_⟩
  have l := Host.reduce_andi_all _ _ _ _ ValueIdx.ix0 e5lo i
  have u := Host.reduce_andi_all _ _ _ _ ValueIdx.ix0 e5hi i
  exact toNat_lt_of_signed (a5 i) l u

end Cert.Q4

end
-- ==== Proof.RefValue.lean ====
/-
  The reference program's result at one index, at the ideal instance, is the closed form `outAdd`.

  The reference unpacks two 4-bit codes from each packed word (the low four bits, and the next four after a shift),
  lays them side by side along a new last axis of length two and flattens, so column `l` of a row reads word `l / 2`,
  low code for even `l` and high code for odd `l`.  The code is converted to a number, the group's zero point is
  subtracted and the result multiplied by the group's scale clamped below by `eps`; the groups are 128 consecutive
  columns.  The first contraction sums activations against these weights over the 4096 columns and the bias is added.
  The outlier column numbers are wrapped (a negative one has 4096 added), the activations are gathered at those
  columns (the gather clamps each start into [0, 4095]), and the second contraction sums the gathered activations
  against the high-precision weights over the 128 outliers.
-/
import proofs.«425230_j13048110645378_3_alg».proof.Proof.Gen.ReferenceIdeal.Read
import proofs.«425230_j13048110645378_3_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx
open Cert.ReferenceIdeal Cert.ReferenceIdeal.Gen Cert.ReferenceIdeal.Read

namespace Cert.Q4

/-- The gather of columns along the last axis, read at one index: axes 0 and 1 of the operand carry the result's first
    two coordinates (offsets, start 0), and axis 2 carries the start index of outlier `h`, read signed and clamped
    into [0, 4095]. -/
theorem gather_cols {α : Type} (x : S8x2048x4096.Idx → α) (idx : IVec S128x1 32) (b : Fin 8) (s : Fin 2048) (h : Fin 128) :
    Host.gather gather_S8x2048x4096_S128x1_S8x2048x128_01_2_n_n_2_1_820481 x idx (ix3 b s h)
      = x (ix3 b s ⟨min (idx (ix2 h 0)).toInt.toNat 4095, by omega⟩) := by
  unfold Host.gather
  congr 1
  funext a
  refine Fin.ext ?_
  match a with
  | ⟨0, _⟩ =>
    show GatherDims.start _ (ix3 b s h) idx 0 + GatherDims.batchCoord _ (ix3 b s h) 0 + GatherDims.offCoord _ (ix3 b s h) 0 = b.val
    rw [GatherDims.batchCoord_eq_zero _ _ _ List.not_mem_nil]
    unfold GatherDims.start
    rw [dif_neg (show ¬(0 : Fin S8x2048x4096.rank) ∈ gather_S8x2048x4096_S128x1_S8x2048x128_01_2_n_n_2_1_820481.startIndexMap by decide)]
    unfold GatherDims.offCoord
    rw [dif_pos (show (0 : Fin S8x2048x4096.rank) ∈ gather_S8x2048x4096_S128x1_S8x2048x128_01_2_n_n_2_1_820481.sKept by decide)]
    have e : gather_S8x2048x4096_S128x1_S8x2048x128_01_2_n_n_2_1_820481.offsetDims[List.idxOf (0 : Fin S8x2048x4096.rank) gather_S8x2048x4096_S128x1_S8x2048x128_01_2_n_n_2_1_820481.sKept]'(by decide) = (0 : Fin S8x2048x128.rank) := by decide
    rw [e, Nat.zero_add]
  | ⟨1, _⟩ =>
    show GatherDims.start _ (ix3 b s h) idx 1 + GatherDims.batchCoord _ (ix3 b s h) 1 + GatherDims.offCoord _ (ix3 b s h) 1 = s.val
    rw [GatherDims.batchCoord_eq_zero _ _ _ List.not_mem_nil]
    unfold GatherDims.start
    rw [dif_neg (show ¬(1 : Fin S8x2048x4096.rank) ∈ gather_S8x2048x4096_S128x1_S8x2048x128_01_2_n_n_2_1_820481.startIndexMap by decide)]
    unfold GatherDims.offCoord
    rw [dif_pos (show (1 : Fin S8x2048x4096.rank) ∈ gather_S8x2048x4096_S128x1_S8x2048x128_01_2_n_n_2_1_820481.sKept by decide)]
    have e : gather_S8x2048x4096_S128x1_S8x2048x128_01_2_n_n_2_1_820481.offsetDims[List.idxOf (1 : Fin S8x2048x4096.rank) gather_S8x2048x4096_S128x1_S8x2048x128_01_2_n_n_2_1_820481.sKept]'(by decide) = (1 : Fin S8x2048x128.rank) := by decide
    rw [e, Nat.zero_add]
  | ⟨2, _⟩ =>
    show GatherDims.start _ (ix3 b s h) idx 2 + GatherDims.batchCoord _ (ix3 b s h) 2 + GatherDims.offCoord _ (ix3 b s h) 2 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (2 : Fin S8x2048x4096.rank) ∈ gather_S8x2048x4096_S128x1_S8x2048x128_01_2_n_n_2_1_820481.startIndexMap from List.mem_singleton.mpr rfl)]
    have hsi : gather_S8x2048x4096_S128x1_S8x2048x128_01_2_n_n_2_1_820481.siIdx (ix3 b s h)
        ⟨List.idxOf (2 : Fin S8x2048x4096.rank) gather_S8x2048x4096_S128x1_S8x2048x128_01_2_n_n_2_1_820481.startIndexMap,
          List.idxOf_lt_length_iff.2 (List.mem_singleton.mpr rfl)⟩ = ix2 h 0 := by
      funext c; refine Fin.ext ?_
      match c with
      | ⟨0, _⟩ => rfl
      | ⟨1, _⟩ => rfl
    rw [hsi]
    rfl

/-- The wrapped column number of outlier `h`, as the gather receives it: a negative number has 4096 added. -/
theorem wrap_ref (x5 : SI.Idx → BitVec 32) (h : Fin 128) :
    val_main_v30 (F := Ideal) x5 (ix2 h 0)
      = Scalar.select (IntOp.cmpi .slt (x5 (ix1 h)) 0#32) (IntOp.addi (x5 (ix1 h)) 4096#32) (x5 (ix1 h)) := by
  have e : idx_main_v30 (ix2 h (0 : Fin 1)) = ix1 h := funext fun a => Fin.ext (by match a with | ⟨0, _⟩ => rfl)
  rw [val_main_v30_apply, e, val_main_v29_apply, val_main_v26_apply, val_main_v28_apply, val_main_v27_apply, val_main_v25_apply,
    val_main_c_3_apply, val_main_c_2_apply]

/-- The gathered activation of outlier `h`: the activation at the wrapped and clamped column. -/
theorem gathered_ref (x0 : SX.Idx → EReal) (x5 : SI.Idx → BitVec 32) (b : Fin 8) (s : Fin 2048) (h : Fin 128) :
    val_main_v31 (F := Ideal) x0 x5 (ix3 b s h) = x0 (ix3 b s (col (x5 (ix1 h)))) := by
  unfold val_main_v31
  rw [gather_cols]
  have e : (⟨min (val_main_v30 (F := Ideal) x5 (ix2 h 0)).toInt.toNat 4095, by omega⟩ : Fin 4096) = col (x5 (ix1 h)) :=
    Fin.ext (by show min _ 4095 = min _ 4095; rw [wrap_ref])
  rw [e]

/-- Column `l` of row `o` after the unpacking, the side-by-side join and the flattening: the low code of word `l / 2`
    for an even column, the high code for an odd one. -/
theorem code_ref (x1 : SQ.Idx → BitVec 32) (o l : Fin 4096) :
    val_main_v9 (F := Ideal) x1 (ix2 o l) = code x1 o l := by
  have ho := o.isLt
  have hl := l.isLt
  rw [val_main_v9_apply]
  unfold val_main_v8 code
  by_cases hp : l.val % 2 = 0
  · rw [if_pos hp]
    rw [concatenate_pair_apply_left (t := S4096x2048x2) (s₁ := S4096x2048x1) (s₂ := S4096x2048x1) (2 : Fin S4096x2048x2.rank) _ _ _ (idx_main_v9 (ix2 o l)) rfl
      (ix3 o (half l) (0 : Fin 1)) (fun c => by
        match c with
        | ⟨0, _⟩ => show o.val = (o.val * 4096 + l.val) / 4096; omega
        | ⟨1, _⟩ => show l.val / 2 = (o.val * 4096 + l.val) / 2 % 2048; omega
        | ⟨2, _⟩ => show 0 = (o.val * 4096 + l.val) % 2; omega)]
    have e : idx_main_v6 (ix3 o (half l) (0 : Fin 1)) = ix2 o (half l) :=
      funext fun a => Fin.ext (by match a with | ⟨0, _⟩ => rfl | ⟨1, _⟩ => rfl)
    rw [val_main_v6_apply, e, val_main_v1_apply, val_main_v0_apply, val_main_c_apply]
  · rw [if_neg hp]
    rw [concatenate_pair_apply_right (t := S4096x2048x2) (s₁ := S4096x2048x1) (s₂ := S4096x2048x1) (2 : Fin S4096x2048x2.rank) _ _ _ (idx_main_v9 (ix2 o l)) rfl rfl
      (ix3 o (half l) (0 : Fin 1)) (fun c hc => by
        match c with
        | ⟨0, _⟩ => show o.val = (o.val * 4096 + l.val) / 4096; omega
        | ⟨1, _⟩ => show l.val / 2 = (o.val * 4096 + l.val) / 2 % 2048; omega
        | ⟨2, _⟩ => exact absurd rfl hc)
      (by show 0 + 1 = (o.val * 4096 + l.val) % 2; omega)]
    have e : idx_main_v7 (ix3 o (half l) (0 : Fin 1)) = ix2 o (half l) :=
      funext fun a => Fin.ext (by match a with | ⟨0, _⟩ => rfl | ⟨1, _⟩ => rfl)
    rw [val_main_v7_apply, e, val_main_v5_apply, val_main_v3_apply, val_main_v4_apply, val_main_v2_apply,
      val_main_c_1_apply, val_main_c_0_apply]

/-- The dequantized weight at row `o`, column `l`: the code as a number, minus the zero point of the column's group,
    times that group's scale clamped below by `eps`. -/
theorem deq_ref (x1 : SQ.Idx → BitVec 32) (x2 x3 : SG.Idx → EReal) (o l : Fin 4096) :
    val_main_v20 (F := Ideal) x1 x2 x3 (ix2 o l) = deq x1 x2 x3 o l := by
  have ho := o.isLt
  have hl := l.isLt
  have e20 : idx_main_v20 (ix2 o l) = ix3 o (grp l) (⟨l.val % 128, by omega⟩ : Fin 128) :=
    funext fun a => Fin.ext (by
      match a with
      | ⟨0, _⟩ => show (o.val * 4096 + l.val) / 4096 = o.val; omega
      | ⟨1, _⟩ => show (o.val * 4096 + l.val) / 128 % 32 = l.val / 128; omega
      | ⟨2, _⟩ => show (o.val * 4096 + l.val) % 128 = l.val % 128; omega)
  have e11 : idx_main_v11 (ix3 o (grp l) (⟨l.val % 128, by omega⟩ : Fin 128)) = ix2 o l :=
    funext fun a => Fin.ext (by
      match a with
      | ⟨0, _⟩ => show ((o.val * 32 + l.val / 128) * 128 + l.val % 128) / 4096 = o.val; omega
      | ⟨1, _⟩ => show ((o.val * 32 + l.val / 128) * 128 + l.val % 128) % 4096 = l.val; omega)
  have e16 : idx_main_v15 (idx_main_v16 (ix3 o (grp l) (⟨l.val % 128, by omega⟩ : Fin 128))) = ix2 o (grp l) :=
    funext fun a => Fin.ext (by match a with | ⟨0, _⟩ => rfl | ⟨1, _⟩ => rfl)
  have e18 : idx_main_v14 (idx_main_v18 (ix3 o (grp l) (⟨l.val % 128, by omega⟩ : Fin 128))) = ix2 o (grp l) :=
    funext fun a => Fin.ext (by match a with | ⟨0, _⟩ => rfl | ⟨1, _⟩ => rfl)
  rw [val_main_v20_apply, e20, val_main_v19_apply, val_main_v17_apply, val_main_v11_apply, e11, val_main_v10_apply,
    code_ref, val_main_v16_apply, val_main_v15_apply, e16, val_main_v18_apply, val_main_v14_apply, e18,
    val_main_v13_apply, val_main_v12_apply, val_main_cst_apply]
  rfl

/-- THE REFERENCE'S RESULT AT ONE INDEX: the sum over the 4096 columns of activation times dequantized weight, plus the
    bias, plus the sum over the 128 outliers of the gathered activation times its high-precision weight. -/
theorem ref_value (x0 : SX.Idx → EReal) (x1 : SQ.Idx → BitVec 32) (x2 x3 : SG.Idx → EReal) (x4 : SB.Idx → EReal)
    (x5 : SI.Idx → BitVec 32) (x6 : SH.Idx → EReal) (b : Fin 8) (s : Fin 2048) (o : Fin 4096) :
    Cert.ReferenceIdeal.Read.val_main_v33 (F := Ideal) x0 x1 x2 x3 x4 x5 x6 (ix3 b s o) = outAdd x0 x1 x2 x3 x4 x5 x6 b s o := by
  have ebias : idx_main_v22 (idx_main_v23 (ix3 b s o)) = ix1 o :=
    funext fun a => Fin.ext (by match a with | ⟨0, _⟩ => rfl)
  rw [val_main_v33_apply, val_main_v24_apply, val_main_v21_apply, val_main_v32_apply, val_main_v23_apply,
    val_main_v22_apply, ebias]
  unfold outAdd
  show ((∑ k : Fin 4096, x0 (lidx_main_v21 (ix3 b s o) k) * val_main_v20 (F := Ideal) x1 x2 x3 (ridx_main_v21 (ix3 b s o) k))
        + x4 (ix1 o))
      + (∑ k : Fin 128, val_main_v31 (F := Ideal) x0 x5 (lidx_main_v32 (ix3 b s o) k) * x6 (ridx_main_v32 (ix3 b s o) k)) = _
  have h1 : ∀ k : Fin 4096, x0 (lidx_main_v21 (ix3 b s o) k) * val_main_v20 (F := Ideal) x1 x2 x3 (ridx_main_v21 (ix3 b s o) k)
      = x0 (ix3 b s k) * deq x1 x2 x3 o k := fun k => by
    have el : lidx_main_v21 (ix3 b s o) k = ix3 b s k :=
      funext fun a => Fin.ext (by match a with | ⟨0, _⟩ => rfl | ⟨1, _⟩ => rfl | ⟨2, _⟩ => rfl)
    have er : ridx_main_v21 (ix3 b s o) k = ix2 o k :=
      funext fun a => Fin.ext (by match a with | ⟨0, _⟩ => rfl | ⟨1, _⟩ => rfl)
    rw [el, er, deq_ref]
  have h2 : ∀ k : Fin 128, val_main_v31 (F := Ideal) x0 x5 (lidx_main_v32 (ix3 b s o) k) * x6 (ridx_main_v32 (ix3 b s o) k)
      = x0 (ix3 b s (col (x5 (ix1 k)))) * x6 (ix2 o k) := fun k => by
    have el : lidx_main_v32 (ix3 b s o) k = ix3 b s k :=
      funext fun a => Fin.ext (by match a with | ⟨0, _⟩ => rfl | ⟨1, _⟩ => rfl | ⟨2, _⟩ => rfl)
    have er : ridx_main_v32 (ix3 b s o) k = ix2 o k :=
      funext fun a => Fin.ext (by match a with | ⟨0, _⟩ => rfl | ⟨1, _⟩ => rfl)
    rw [el, er, gathered_ref]
  rw [Finset.sum_congr rfl (fun k _ => h1 k), Finset.sum_congr rfl (fun k _ => h2 k)]

end Cert.Q4

end
-- ==== Proof.KBody.lean ====
/-
  What one grid point's body leaves behind, as values.

  The accumulator is a scratch block acc[2048, 1024] carried from point to point along the innermost grid axis k.
  At k = 0 the body zeroes it; at every k it replaces it by  acc + x_k · w_kᵀ  (the [2048, 512] activation block times
  the transposed [1024, 512] weight block, the matrix unit's product onto a zero accumulator); at k = 7 it also
  stores  acc + bias  (the bias row repeated down the 2048 rows) into the output block.
-/
import proofs.«425230_j13048110645378_3_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.Q4K

open Cert.KernelIdeal Cert.KernelIdeal.Gen

variable {F : FTy → Type} [FloatOps F]

theorem hz : (![0, 0] : Fin 2 → Nat) = fun _ => 0 := funext fun a => by fin_cases a <;> rfl

/-- A middle point (0 < k < 7): the accumulator goes from `xs0` to `xs0 + x·wᵀ`. -/
theorem acc_B (c : Dev nD) (i : grid0.Coords) (a3 : Memref sig .tc .vmem S2048x512 .f32) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : ¬cond0_1 i) (x0 : Vec F S2048x512 .f32) (x1 : Vec F S1024x512 .bf16) (x2 : Vec F S1x1024 .f32)
    (xs0 : Vec F S2048x1024 .f32) :
    sout0_B_0 c i a3 h3 a4 h4 a5 h5 a6 h6 a7 h7 hc0 hc1 x0 x1 x2 xs0 = k0_pay2 x0 xs0 x1 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero hz]
  simp only [View.readAt_eq_ld, h3.read_unread, h4.read_unread, h5.read_unread, h7.read_unread,
    View.ld_unit_zero (S := S2048x512) hz, View.ld_unit_zero (S := S1024x512) hz, View.ld_unit_zero (S := S2048x1024) hz,
    View.ld_unit_zero (S := S1x1024) hz, View.readCov_unit_zero (S := S2048x1024) _ hz]

/-- The last point (k = 7): the accumulator goes from `xs0` to `xs0 + x·wᵀ` … -/
theorem acc_C (c : Dev nD) (i : grid0.Coords) (a3 : Memref sig .tc .vmem S2048x512 .f32) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i) (x0 : Vec F S2048x512 .f32) (x1 : Vec F S1024x512 .bf16) (x2 : Vec F S1x1024 .f32)
    (xs0 : Vec F S2048x1024 .f32) :
    sout0_C_0 c i a3 h3 a4 h4 a5 h5 a6 h6 a7 h7 hc0 hc1 x0 x1 x2 xs0 = k0_pay2 x0 xs0 x1 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S2048x512) hz, View.ld_unit_zero (S := S1024x512) hz, View.ld_unit_zero (S := S2048x1024) hz,
    View.ld_unit_zero (S := S1x1024) hz, View.readCov_unit_zero (S := S2048x1024) _ hz]

/-- … and the output block is that new accumulator plus the bias row. -/
theorem out_C (c : Dev nD) (i : grid0.Coords) (a3 : Memref sig .tc .vmem S2048x512 .f32) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : ¬cond0_0 i) (hc1 : cond0_1 i) (x0 : Vec F S2048x512 .f32) (x1 : Vec F S1024x512 .bf16) (x2 : Vec F S1x1024 .f32)
    (xs0 : Vec F S2048x1024 .f32) :
    out0_C_3 c i a3 h3 a4 h4 a5 h5 a6 h6 a7 h7 hc0 hc1 x0 x1 x2 xs0 = k0_pay3 (k0_pay2 x0 xs0 x1) x2 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero hz]
  simp only [View.readAt_eq_ld, h3.read_unread, h4.read_unread, h5.read_unread, h7.read_unread,
    View.ld_unit_zero (S := S2048x512) hz, View.ld_unit_zero (S := S1024x512) hz, View.ld_unit_zero (S := S2048x1024) hz,
    View.ld_unit_zero (S := S1x1024) hz, View.readCov_unit_zero (S := S2048x1024) _ hz]

/-- The first point (k = 0): the accumulator is zeroed, then becomes `0 + x·wᵀ`. -/
theorem acc_A (c : Dev nD) (i : grid0.Coords) (a3 : Memref sig .tc .vmem S2048x512 .f32) (h3 : a3.IsWhole)
    (a4 : Memref sig .tc .vmem S1024x512 .bf16) (h4 : a4.IsWhole) (a5 : Memref sig .tc .vmem S1x1024 .f32) (h5 : a5.IsWhole)
    (a6 : Memref sig .tc .vmem S2048x1024 .f32) (h6 : a6.IsWhole) (a7 : Memref sig .tc .vmem S2048x1024 .f32) (h7 : a7.IsWhole)
    (hc0 : cond0_0 i) (hc1 : ¬cond0_1 i) (x0 : Vec F S2048x512 .f32) (x1 : Vec F S1024x512 .bf16) (x2 : Vec F S1x1024 .f32) :
    sout0_A_0 c i a3 h3 a4 h4 a5 h5 a6 h6 a7 h7 hc0 hc1 x0 x1 x2 = k0_pay2 x0 (k0_pay1 (F := F)) x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, h5.read_unread, h7.read_unread,
    View.ld_unit_zero (S := S2048x512) hz, View.ld_unit_zero (S := S1024x512) hz, View.ld_unit_zero (S := S2048x1024) hz,
    View.ld_unit_zero (S := S1x1024) hz, View.readCov_unit_zero (S := S2048x1024) _ hz]

/-! ## The three payloads at an index, over the extended reals -/

/-- The reset stores zero. -/
theorem pay1_apply (j : S2048x1024.Idx) : k0_pay1 (F := Ideal) j = 0 := by
  unfold k0_pay1
  simp only [shapeCast_self]
  exact Ideal.ofBits_zero_f32

theorem lhs_mm_0 (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_mm_1 (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_mm_0 (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_mm_1 (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The block product onto a zero accumulator, entry (p, q): the sum over the 512 columns of the block of
    activation (p, l) times weight (q, l) — the weight block is used transposed. -/
theorem mm_apply (a : FVec Ideal S2048x512 .bf16) (w : FVec Ideal S1024x512 .bf16) (p : Fin 2048) (q : Fin 1024) :
    FloatOps.matmul dot_S2048x512_S1024x512_S2048x1024_1_1_0_0_n_n none a w (constant S2048x1024 .f32 0x00000000#32) (ix2 p q)
      = ∑ l : Fin 512, a (ix2 p l) * w (ix2 q l) := by
  rw [Ideal.matmul_constant_zero_apply, ← Equiv.sum_comp (ValueIdx.contrEquiv1 dot_S2048x512_S1024x512_S2048x1024_1_1_0_0_n_n 512 rfl rfl).symm]
  refine Finset.sum_congr rfl fun k _ => ?_
  have hk := ValueIdx.contrEquiv1_symm_val dot_S2048x512_S1024x512_S2048x1024_1_1_0_0_n_n 512 rfl rfl k
  have el : dot_S2048x512_S1024x512_S2048x1024_1_1_0_0_n_n.lhsIdx (ix2 p q) ((ValueIdx.contrEquiv1 dot_S2048x512_S1024x512_S2048x1024_1_1_0_0_n_n 512 rfl rfl).symm k) = ix2 p k := funext fun b => Fin.ext (by
    match b with
    | ⟨0, _⟩ => exact lhs_mm_0 _ _
    | ⟨1, _⟩ => exact (lhs_mm_1 _ _).trans hk)
  have er : dot_S2048x512_S1024x512_S2048x1024_1_1_0_0_n_n.rhsIdx (ix2 p q) ((ValueIdx.contrEquiv1 dot_S2048x512_S1024x512_S2048x1024_1_1_0_0_n_n 512 rfl rfl).symm k) = ix2 q k := funext fun b => Fin.ext (by
    match b with
    | ⟨0, _⟩ => exact rhs_mm_0 _ _
    | ⟨1, _⟩ => exact (rhs_mm_1 _ _).trans hk)
  rw [el, er]

/-- The accumulate step at (p, q): the old accumulator plus the block product. -/
theorem pay2_apply (v3 : Vec Ideal S2048x512 .f32) (v6 : Vec Ideal S2048x1024 .f32) (v7 : Vec Ideal S1024x512 .bf16)
    (p : Fin 2048) (q : Fin 1024) :
    k0_pay2 v3 v6 v7 (ix2 p q) = v6 (ix2 p q) + ∑ l : Fin 512, v3 (ix2 p l) * v7 (ix2 q l) := by
  unfold k0_pay2
  simp only [shapeCast_self]
  exact congrArg (v6 (ix2 p q) + ·) (mm_apply (truncf .bf16 v3 bitsLt_bf16_f32) v7 p q)

/-- The epilogue at (p, q): the accumulator plus the bias of column q. -/
theorem pay3_apply (v17 : Vec Ideal S2048x1024 .f32) (v18 : Vec Ideal S1x1024 .f32) (p : Fin 2048) (q : Fin 1024) :
    k0_pay3 v17 v18 (ix2 p q) = v17 (ix2 p q) + v18 (ix2 (0 : Fin 1) q) := by
  unfold k0_pay3
  simp only [shapeCast_self]
  exact congrArg (v17 (ix2 p q) + ·) (broadcastTo_apply v18 broadcasts_S1x1024_S2048x1024 (ix2 p q) (ix2 (0 : Fin 1) q) (fun a => by
    match a with
    | ⟨0, _⟩ => show 0 = if (1 : Nat) = 1 then 0 else p.val; rw [if_pos rfl]
    | ⟨1, _⟩ => show q.val = if (1024 : Nat) = 1 then 0 else q.val; rw [if_neg (by decide)]))

end Cert.Q4K

end
-- ==== Proof.KHost.lean ====
/-
  What the kernel's pallas_call finds in its three operand arrays, as functions of the program's arguments.

  Before the call the host computes: the dequantized weight in 2-D form (codes unpacked low nibble / high nibble,
  interleaved along a new last axis and flattened; scales clamped below and zero points repeated 128 times along the
  row), the one-hot matrix of the outlier column numbers (a comparison of the column numbers against an iota), its
  product with the outlier weights, their sum W (narrowed to bf16, the identity on extended reals), the activations
  flattened to [16384, 4096] and the bias as one row [1, 4096].
-/
import proofs.«425230_j13048110645378_3_alg».proof.Proof.Gen.KernelIdeal.Frame
import proofs.«425230_j13048110645378_3_alg».proof.Proof.Spec
import Idealize.ShloMosaic.Lib.Pipeline.Value
import Idealize.ShloMosaic.Lib.StableHlo.Run
import Idealize.ShloMosaic.Lib.ValueIdx
import Idealize.ShloMosaic.PureOps.Ideal.Laws

noncomputable section

open scoped BigOperators
open Idealize.ShloMosaic Idealize.ShloMosaic.TcCoe Idealize.SL.Sem Idealize.ShloMosaic.ValueIdx
open Idealize.ShloMosaic.StableHlo

namespace Cert.Q4K

open Cert.KernelIdeal Cert.KernelIdeal.Gen

variable {F : FTy → Type} [FloatOps F]

/-! ## The host prefix, stage by stage -/

/-- The low nibbles, as floats. -/
def kLo (x1 : IVec S4096x2048 32) : FVec F S4096x2048 .f32 :=
  sitofp .f32 (andi x1 (broadcastInDim S4096x2048 ![] bcast_S_S4096x2048 (constantI S_ 32 15#32)))
/-- The high nibbles, as floats. -/
def kHi (x1 : IVec S4096x2048 32) : FVec F S4096x2048 .f32 :=
  sitofp .f32 (andi (Host.shrsi x1 (broadcastInDim S4096x2048 ![] bcast_S_S4096x2048 (constantI S_ 32 4#32)))
    (broadcastInDim S4096x2048 ![] bcast_S_S4096x2048 (constantI S_ 32 15#32)))
/-- The codes interleaved and flattened to [4096, 4096]. -/
def kQ (x1 : IVec S4096x2048 32) : FVec F S4096x4096 .f32 :=
  shapeCast _ (concatenate S4096x2048x2 2
    [⟨S4096x2048x1, broadcastInDim S4096x2048x1 ![0, 1] bcast_S4096x2048_S4096x2048x1_0_1 (kLo (F := F) x1)⟩,
     ⟨S4096x2048x1, broadcastInDim S4096x2048x1 ![0, 1] bcast_S4096x2048_S4096x2048x1_0_1 (kHi (F := F) x1)⟩]
    concatenates_S4096x2048x1_S4096x2048x1_S4096x2048x2_d2) shapeCasts_S4096x2048x2_S4096x4096
/-- The clamped scales repeated along the row. -/
def kS (x2 : FVec F S4096x32 .f32) : FVec F S4096x4096 .f32 :=
  shapeCast _ (broadcastInDim S4096x32x128 ![0, 1] bcast_S4096x32_S4096x32x128_0_1
    (maximumf x2 (broadcastInDim S4096x32 ![] bcast_S_S4096x32 (constant S_ .f32 0x3089705F#32)))) shapeCasts_S4096x32x128_S4096x4096
/-- The zero points repeated along the row. -/
def kZ (x3 : FVec F S4096x32 .f32) : FVec F S4096x4096 .f32 :=
  shapeCast _ (broadcastInDim S4096x32x128 ![0, 1] bcast_S4096x32_S4096x32x128_0_1 x3) shapeCasts_S4096x32x128_S4096x4096
/-- The dequantized weight. -/
def kDeq (x1 : IVec S4096x2048 32) (x2 x3 : FVec F S4096x32 .f32) : FVec F S4096x4096 .f32 :=
  mulf (subf (kQ (F := F) x1) (kZ x3)) (kS x2)
/-- The one-hot matrix of the outlier column numbers. -/
def kHot (x5 : IVec S128 32) : FVec F S128x4096 .f32 :=
  uitofp .f32 (cmpi .eq (broadcastInDim S128x4096 ![0, 1] bcast_S128x1_S128x4096_0_1 (broadcastInDim S128x1 ![0] bcast_S128_S128x1_0 x5))
    (broadcastInDim S128x4096 ![0, 1] bcast_S1x4096_S128x4096_0_1 (iotaInDim S1x4096 32 1)))
/-- The weight the kernel multiplies by: dequantized plus the folded correction. -/
def kW (x1 : IVec S4096x2048 32) (x2 x3 : FVec F S4096x32 .f32) (x5 : IVec S128 32) (x6 : FVec F S4096x128 .f32) : FVec F S4096x4096 .bf16 :=
  truncf .bf16 (addf (kDeq x1 x2 x3) (Host.dotGeneral dot_S4096x128_S128x4096_S4096x4096_1_0_0_1_n_n none x6 (kHot x5))) bitsLt_bf16_f32
/-- The activations as [16384, 4096]. -/
def kX (x0 : FVec F S8x2048x4096 .f32) : FVec F S16384x4096 .f32 := shapeCast _ x0 shapeCasts_S8x2048x4096_S16384x4096
/-- The bias as one row. -/
def kB (x4 : FVec F S4096 .f32) : FVec F S1x4096 .f32 := shapeCast _ x4 shapeCasts_S4096_S1x4096

variable (m : (ℓ : Loc nD τ sig) → Buf (Elt F) ℓ)

/-- The weight operand's array at region entry. -/
theorem V_w (c : Dev nD) : (V m c main_v23 : S4096x4096.Idx → F .bf16)
    = kW (m ((c : Thread nD τ).loc main_arg1)) (m ((c : Thread nD τ).loc main_arg2)) (m ((c : Thread nD τ).loc main_arg3))
        (m ((c : Thread nD τ).loc main_arg5)) (m ((c : Thread nD τ).loc main_arg6)) := by
  dsimp only [V, V0]
  simp only [hostOps0, hostOps0_1, hostOps0_2, List.flatten_cons, List.flatten_nil, List.append_nil, List.cons_append, List.nil_append]
  after_results_simp
  rfl

/-- The activation operand's array at region entry. -/
theorem V_x (c : Dev nD) : (V m c main_v24 : S16384x4096.Idx → F .f32) = kX (m ((c : Thread nD τ).loc main_arg0)) := by
  dsimp only [V, V0]
  simp only [hostOps0, hostOps0_1, hostOps0_2, List.flatten_cons, List.flatten_nil, List.append_nil, List.cons_append, List.nil_append]
  after_results_simp
  rfl

/-- The bias operand's array at region entry. -/
theorem V_b (c : Dev nD) : (V m c main_v25 : S1x4096.Idx → F .f32) = kB (m ((c : Thread nD τ).loc main_arg4)) := by
  dsimp only [V, V0]
  simp only [hostOps0, hostOps0_1, hostOps0_2, List.flatten_cons, List.flatten_nil, List.append_nil, List.cons_append, List.nil_append]
  after_results_simp
  rfl

/-! ## The stages read at an index, over the extended reals -/

open Cert.Q4

/-- A splat integer constant reads its word. -/
theorem splat_apply {t : Shape} (h : S_.BroadcastsInDim t (![] : Fin 0 → Fin t.rank)) (v : BitVec 32) (i : t.Idx) :
    broadcastInDim t ![] h (constantI S_ 32 v) i = v :=
  broadcastInDim_apply _ h (constantI S_ 32 v) i (fun a => a.elim0) (fun a => a.elim0)

theorem kLo_apply (x1 : IVec S4096x2048 32) (o : Fin 4096) (c : Fin 2048) :
    kLo (F := Ideal) x1 (ix2 o c) = (((IntOp.andi (x1 (ix2 o c)) 15#32).toInt : ℝ) : EReal) := by
  unfold kLo
  show ((((IntOp.andi (x1 (ix2 o c)) (broadcastInDim S4096x2048 ![] bcast_S_S4096x2048 (constantI S_ 32 15#32) (ix2 o c))).toInt : ℝ)) : EReal) = _
  rw [splat_apply]

theorem kHi_apply (x1 : IVec S4096x2048 32) (o : Fin 4096) (c : Fin 2048) :
    kHi (F := Ideal) x1 (ix2 o c) = (((IntOp.andi (IntOp.shrsi .host (x1 (ix2 o c)) 4#32) 15#32).toInt : ℝ) : EReal) := by
  unfold kHi
  show ((((IntOp.andi (IntOp.shrsi .host (x1 (ix2 o c)) (broadcastInDim S4096x2048 ![] bcast_S_S4096x2048 (constantI S_ 32 4#32) (ix2 o c)))
    (broadcastInDim S4096x2048 ![] bcast_S_S4096x2048 (constantI S_ 32 15#32) (ix2 o c))).toInt : ℝ)) : EReal) = _
  rw [splat_apply, splat_apply]

/-- Column `l` of the flattened codes is nibble `l % 2` of word `l / 2`. -/
theorem kQ_apply (x1 : IVec S4096x2048 32) (o l : Fin 4096) :
    kQ (F := Ideal) x1 (ix2 o l) = (((code x1 o l).toInt : ℝ) : EReal) := by
  have hl := l.isLt
  have ho := o.isLt
  unfold kQ
  rw [shapeCast_apply _ shapeCasts_S4096x2048x2_S4096x4096 (ix2 o l)
    (ix3 o (half l) ⟨l.val % 2, Nat.mod_lt _ (by decide)⟩)
    (by rewrite [Shape.rowMajor_val_three, Shape.rowMajor_val_two]
        show (o.val * 2048 + l.val / 2) * 2 + l.val % 2 = o.val * 4096 + l.val
        omega)]
  unfold code
  by_cases h2 : l.val % 2 = 0
  · rw [if_pos h2]
    rw [concatenate_pair_apply_left (t := S4096x2048x2) (s₁ := S4096x2048x1) (s₂ := S4096x2048x1) (2 : Fin 3) _ _
      concatenates_S4096x2048x1_S4096x2048x1_S4096x2048x2_d2 _ rfl (ix3 o (half l) (0 : Fin 1))
      (fun b => by
        match b with
        | ⟨0, _⟩ => rfl
        | ⟨1, _⟩ => rfl
        | ⟨2, _⟩ => exact h2.symm)]
    rw [broadcastInDim_apply _ bcast_S4096x2048_S4096x2048x1_0_1 _ _ (ix2 o (half l)) (fun a => by
        match a with
        | ⟨0, _⟩ => show o.val = if (4096 : Nat) = 1 then 0 else o.val; rw [if_neg (by decide)]
        | ⟨1, _⟩ => show l.val / 2 = if (2048 : Nat) = 1 then 0 else l.val / 2; rw [if_neg (by decide)])]
    exact kLo_apply x1 o (half l)
  · rw [if_neg h2]
    have h1 : l.val % 2 = 1 := by omega
    rw [concatenate_pair_apply_right (t := S4096x2048x2) (s₁ := S4096x2048x1) (s₂ := S4096x2048x1) (2 : Fin 3) _ _
      concatenates_S4096x2048x1_S4096x2048x1_S4096x2048x2_d2 _ rfl rfl (ix3 o (half l) (0 : Fin 1))
      (fun b hb => by
        match b with
        | ⟨0, _⟩ => rfl
        | ⟨1, _⟩ => rfl
        | ⟨2, _⟩ => exact absurd rfl hb)
      (by show 0 + 1 = l.val % 2; omega)]
    rw [broadcastInDim_apply _ bcast_S4096x2048_S4096x2048x1_0_1 _ _ (ix2 o (half l)) (fun a => by
        match a with
        | ⟨0, _⟩ => show o.val = if (4096 : Nat) = 1 then 0 else o.val; rw [if_neg (by decide)]
        | ⟨1, _⟩ => show l.val / 2 = if (2048 : Nat) = 1 then 0 else l.val / 2; rw [if_neg (by decide)])]
    exact kHi_apply x1 o (half l)

/-- A per-group quantity repeated along the row reads group `l / 128`. -/
theorem rep_apply (y : S4096x32.Idx → EReal) (o l : Fin 4096) :
    shapeCast S4096x4096 (broadcastInDim S4096x32x128 ![0, 1] bcast_S4096x32_S4096x32x128_0_1 y) shapeCasts_S4096x32x128_S4096x4096 (ix2 o l)
      = y (ix2 o (grp l)) := by
  have hl := l.isLt
  have ho := o.isLt
  rw [shapeCast_apply _ shapeCasts_S4096x32x128_S4096x4096 (ix2 o l)
    (ix3 o (grp l) ⟨l.val % 128, Nat.mod_lt _ (by decide)⟩)
    (by rewrite [Shape.rowMajor_val_three, Shape.rowMajor_val_two]
        show (o.val * 32 + l.val / 128) * 128 + l.val % 128 = o.val * 4096 + l.val
        omega)]
  exact broadcastInDim_apply _ bcast_S4096x32_S4096x32x128_0_1 y _ (ix2 o (grp l)) (fun a => by
    match a with
    | ⟨0, _⟩ => show o.val = if (4096 : Nat) = 1 then 0 else o.val; rw [if_neg (by decide)]
    | ⟨1, _⟩ => show l.val / 128 = if (32 : Nat) = 1 then 0 else l.val / 128; rw [if_neg (by decide)])

theorem kZ_apply (x3 : S4096x32.Idx → EReal) (o l : Fin 4096) : kZ (F := Ideal) x3 (ix2 o l) = x3 (ix2 o (grp l)) := by
  unfold kZ
  exact rep_apply x3 o l

theorem kS_apply (x2 : S4096x32.Idx → EReal) (o l : Fin 4096) : kS (F := Ideal) x2 (ix2 o l) = max (x2 (ix2 o (grp l))) eps := by
  unfold kS
  rw [rep_apply]
  show max (x2 (ix2 o (grp l))) (broadcastInDim S4096x32 ![] bcast_S_S4096x32 (constant (F := Ideal) S_ .f32 0x3089705F#32) (ix2 o (grp l))) = _
  rw [broadcastInDim_apply _ bcast_S_S4096x32 _ _ (fun a => a.elim0) (fun a => a.elim0)]
  rfl

theorem kDeq_apply (x1 : IVec S4096x2048 32) (x2 x3 : S4096x32.Idx → EReal) (o l : Fin 4096) :
    kDeq (F := Ideal) x1 x2 x3 (ix2 o l) = deq x1 x2 x3 o l := by
  unfold kDeq deq
  rw [mulf_apply, subf_apply, kQ_apply, kZ_apply, kS_apply]

/-- The one-hot matrix at (h, l) compares outlier `h`'s column number with `l`. -/
theorem kHot_apply (x5 : IVec S128 32) (h : Fin 128) (l : Fin 4096) : kHot (F := Ideal) x5 (ix2 h l) = hot x5 h l := by
  unfold kHot hot
  show ((((IntOp.cmpi .eq
      (broadcastInDim S128x4096 ![0, 1] bcast_S128x1_S128x4096_0_1 (broadcastInDim S128x1 ![0] bcast_S128_S128x1_0 x5) (ix2 h l))
      (broadcastInDim S128x4096 ![0, 1] bcast_S1x4096_S128x4096_0_1 (iotaInDim S1x4096 32 1) (ix2 h l))).toNat : ℝ)) : EReal) = _
  rw [broadcastInDim_apply _ bcast_S128x1_S128x4096_0_1 _ _ (ix2 h (0 : Fin 1)) (fun a => by
      match a with
      | ⟨0, _⟩ => show h.val = if (128 : Nat) = 1 then 0 else h.val; rw [if_neg (by decide)]
      | ⟨1, _⟩ => show 0 = if (1 : Nat) = 1 then 0 else l.val; rw [if_pos rfl]),
    broadcastInDim_apply _ bcast_S128_S128x1_0 _ _ (ix1 h) (fun a => by
      match a with
      | ⟨0, _⟩ => show h.val = if (128 : Nat) = 1 then 0 else h.val; rw [if_neg (by decide)]),
    broadcastInDim_apply _ bcast_S1x4096_S128x4096_0_1 _ _ (ix2 (0 : Fin 1) l) (fun a => by
      match a with
      | ⟨0, _⟩ => show 0 = if (1 : Nat) = 1 then 0 else h.val; rw [if_pos rfl]
      | ⟨1, _⟩ => show l.val = if (4096 : Nat) = 1 then 0 else l.val; rw [if_neg (by decide)])]
  rfl

/-! ## The correction's product with the one-hot matrix: a sum over the 128 outliers -/

theorem lhs_hp_0 (i : S4096x4096.Idx) (q : dot_S4096x128_S128x4096_S4096x4096_1_0_0_1_n_n.contr.Idx) :
    (dot_S4096x128_S128x4096_S4096x4096_1_0_0_1_n_n.lhsIdx i q 0).val = (i 0).val := by
  unfold DotDims.lhsIdx
  rw [dif_neg (show ¬(0 : Fin S4096x128.rank) ∈ dot_S4096x128_S128x4096_S4096x4096_1_0_0_1_n_n.lhsBatch by decide), dif_pos (show (0 : Fin S4096x128.rank) ∈ dot_S4096x128_S128x4096_S4096x4096_1_0_0_1_n_n.lhsNonContracting by decide)]
  rfl
theorem lhs_hp_1 (i : S4096x4096.Idx) (q : dot_S4096x128_S128x4096_S4096x4096_1_0_0_1_n_n.contr.Idx) :
    (dot_S4096x128_S128x4096_S4096x4096_1_0_0_1_n_n.lhsIdx i q 1).val = (q ⟨0, by decide⟩).val :=
  dot_S4096x128_S128x4096_S4096x4096_1_0_0_1_n_n.lhsIdx_val_of_single rfl i q
theorem rhs_hp_0 (i : S4096x4096.Idx) (q : dot_S4096x128_S128x4096_S4096x4096_1_0_0_1_n_n.contr.Idx) :
    (dot_S4096x128_S128x4096_S4096x4096_1_0_0_1_n_n.rhsIdx i q 0).val = (q ⟨0, by decide⟩).val :=
  dot_S4096x128_S128x4096_S4096x4096_1_0_0_1_n_n.rhsIdx_val_of_single rfl i q
theorem rhs_hp_1 (i : S4096x4096.Idx) (q : dot_S4096x128_S128x4096_S4096x4096_1_0_0_1_n_n.contr.Idx) :
    (dot_S4096x128_S128x4096_S4096x4096_1_0_0_1_n_n.rhsIdx i q 1).val = (i 1).val := by
  unfold DotDims.rhsIdx
  rw [dif_neg (show ¬(1 : Fin S128x4096.rank) ∈ dot_S4096x128_S128x4096_S4096x4096_1_0_0_1_n_n.rhsBatch by decide), dif_pos (show (1 : Fin S128x4096.rank) ∈ dot_S4096x128_S128x4096_S4096x4096_1_0_0_1_n_n.rhsNonContracting by decide)]
  rfl

/-- Entry (o, l) of the product is the sum over the outliers of weight (o, h) times the matrix's (h, l). -/
theorem hp_apply (x6 : FVec Ideal S4096x128 .f32) (y : FVec Ideal S128x4096 .f32) (o l : Fin 4096) :
    Host.dotGeneral dot_S4096x128_S128x4096_S4096x4096_1_0_0_1_n_n none x6 y (ix2 o l) = ∑ h : Fin 128, x6 (ix2 o h) * y (ix2 h l) := by
  simp only [Host.dotGeneral]
  rw [Ideal.dotGeneral_apply, ← Equiv.sum_comp (ValueIdx.contrEquiv1 dot_S4096x128_S128x4096_S4096x4096_1_0_0_1_n_n 128 rfl rfl).symm]
  refine Finset.sum_congr rfl fun k _ => ?_
  have hk := ValueIdx.contrEquiv1_symm_val dot_S4096x128_S128x4096_S4096x4096_1_0_0_1_n_n 128 rfl rfl k
  have el : dot_S4096x128_S128x4096_S4096x4096_1_0_0_1_n_n.lhsIdx (ix2 o l) ((ValueIdx.contrEquiv1 dot_S4096x128_S128x4096_S4096x4096_1_0_0_1_n_n 128 rfl rfl).symm k) = ix2 o k := funext fun a => Fin.ext (by
    match a with
    | ⟨0, _⟩ => exact lhs_hp_0 _ _
    | ⟨1, _⟩ => exact (lhs_hp_1 _ _).trans hk)
  have er : dot_S4096x128_S128x4096_S4096x4096_1_0_0_1_n_n.rhsIdx (ix2 o l) ((ValueIdx.contrEquiv1 dot_S4096x128_S128x4096_S4096x4096_1_0_0_1_n_n 128 rfl rfl).symm k) = ix2 k l := funext fun a => Fin.ext (by
    match a with
    | ⟨0, _⟩ => exact (rhs_hp_0 _ _).trans hk
    | ⟨1, _⟩ => exact rhs_hp_1 _ _)
  rw [el, er]

/-- THE WEIGHT OPERAND at (o, l): the dequantized weight plus the folded correction. -/
theorem kW_apply (x1 : IVec S4096x2048 32) (x2 x3 : S4096x32.Idx → EReal) (x5 : IVec S128 32) (x6 : S4096x128.Idx → EReal) (o l : Fin 4096) :
    kW (F := Ideal) x1 x2 x3 x5 x6 (ix2 o l) = wfold x1 x2 x3 x5 x6 o l := by
  unfold kW wfold
  rw [truncf_apply, addf_apply, kDeq_apply, hp_apply]
  congr 1
  refine Finset.sum_congr rfl fun h _ => ?_
  rw [kHot_apply]

/-- THE ACTIVATION OPERAND at (r, l): row `r` of the flattened activations is (r / 2048, r % 2048). -/
theorem kX_apply (x0 : S8x2048x4096.Idx → EReal) (r : Fin 16384) (l : Fin 4096) :
    kX (F := Ideal) x0 (ix2 r l)
      = x0 (ix3 (⟨r.val / 2048, by have := r.isLt; omega⟩ : Fin 8) (⟨r.val % 2048, Nat.mod_lt _ (by decide)⟩ : Fin 2048) l) := by
  have hr := r.isLt
  have hl := l.isLt
  unfold kX
  exact shapeCast_apply _ shapeCasts_S8x2048x4096_S16384x4096 (ix2 r l) _
    (by rewrite [Shape.rowMajor_val_three, Shape.rowMajor_val_two]
        show (r.val / 2048 * 2048 + r.val % 2048) * 4096 + l.val = r.val * 4096 + l.val
        omega)

/-- THE BIAS OPERAND at (0, o). -/
theorem kB_apply (x4 : S4096.Idx → EReal) (o : Fin 4096) : kB (F := Ideal) x4 (ix2 (0 : Fin 1) o) = x4 (ix1 o) := by
  unfold kB
  exact shapeCast_apply _ shapeCasts_S4096_S1x4096 (ix2 (0 : Fin 1) o) (ix1 o)
    (by rewrite [Shape.rowMajor_val_one, Shape.rowMajor_val_two]
        show o.val = 0 * 4096 + o.val
        omega)

end Cert.Q4K

end
-- ==== Proof.KAcc.lean ====
/-
  The kernel's result array, from the accumulation across the grid.

  The grid is (i, j, k) = (8, 4, 8) with k innermost, point number n = 32 i + 8 j + k.  Point n reads the activation
  block rows 2048 i .., columns 512 k .., the weight block rows 1024 j .., columns 512 k .., and the bias columns 1024 j ...
  The carried accumulator after point n holds, at (p, q), the partial sum over the columns l < 512 (k + 1) of
  X[2048 i + p, l] * W[1024 j + q, l]: zeroed and started at k = 0, extended by one block of 512 columns at each further
  k (a sum over a range splits at 512 k).  At k = 7 the sum is over all 4096 columns and the body writes it, plus the
  bias, into the output block (i, j); the 32 written blocks tile the [16384, 4096] result, which the host then
  reshapes to [8, 2048, 4096].
-/
import proofs.«425230_j13048110645378_3_alg».proof.Proof.KBody
import proofs.«425230_j13048110645378_3_alg».proof.Proof.KHost

noncomputable section

open scoped BigOperators
open Idealize.ShloMosaic Idealize.ShloMosaic.TcCoe Idealize.SL.Sem Idealize.ShloMosaic.ValueIdx
open Idealize.ShloMosaic.Pipeline (Dat)

namespace Cert.Q4K

open Cert.KernelIdeal Cert.KernelIdeal.Gen

variable (m : (ℓ : Loc nD τ sig) → Buf (Elt Ideal) ℓ) (ρ : Dev nD → PrngReg)

/-! ## The operand arrays and blocks, at their literal types -/

abbrev xarr (c : Dev nD) : Vec Ideal S16384x4096 .f32 := V m c main_v24
abbrev warr (c : Dev nD) : Vec Ideal S4096x4096 .bf16 := V m c main_v23
abbrev barr (c : Dev nD) : Vec Ideal S1x4096 .f32 := V m c main_v25
abbrev xblk (c : Dev nD) (t : Fin cfg0.N) : Vec Ideal S2048x512 .f32 := iblk m c 0 t
abbrev wblk (c : Dev nD) (t : Fin cfg0.N) : Vec Ideal S1024x512 .bf16 := iblk m c 1 t
abbrev bblk (c : Dev nD) (t : Fin cfg0.N) : Vec Ideal S1x1024 .f32 := iblk m c 2 t

/-- The printed index maps, decided over the 256 points: block (n / 32, n % 8) of the activations, block
    (n / 8 % 4, n % 8) of the weight, block (0, n / 8 % 4) of the bias row, block (n / 32, n / 8 % 4) of the result. -/
theorem idx_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = 0 ∧ win0_2.index t (1 : Fin 2) = t.val / 8 % 4
    ∧ win0_3.index t (0 : Fin 2) = t.val / 32 ∧ win0_3.index t (1 : Fin 2) = t.val / 8 % 4 :=
  (by decide +kernel : ∀ t : Fin grid0.N, _)

/-- The activation block at point `t` reads the array at the block's offset. -/
theorem xblk_apply (c : Dev nD) (t : Fin cfg0.N) (p : Fin 2048) (l : Fin 512) (r k : ℕ) (hr : r = 2048 * (t.val / 32) + p.val)
    (hk : k = 512 * (t.val % 8) + l.val) (hr' : r < 16384) (hk' : k < 4096) :
    xblk m c t (ix2 p l) = xarr m c (ix2 ⟨r, hr'⟩ ⟨k, hk'⟩) := by
  obtain ⟨e0, e1, -⟩ := idx_facts t
  unfold xblk iblk
  rw [View.read_apply]
  show V m c main_v24 _ = V m c main_v24 _
  congr 1
  funext a
  apply Fin.ext
  match a with
  | ⟨0, _⟩ => show win0_0.index t (0 : Fin 2) * 2048 + 1 * p.val = r; rw [e0]; omega
  | ⟨1, _⟩ => show win0_0.index t (1 : Fin 2) * 512 + 1 * l.val = k; rw [e1]; omega

/-- The weight block at point `t` reads the array at the block's offset. -/
theorem wblk_apply (c : Dev nD) (t : Fin cfg0.N) (q : Fin 1024) (l : Fin 512) (o k : ℕ) (ho : o = 1024 * (t.val / 8 % 4) + q.val)
    (hk : k = 512 * (t.val % 8) + l.val) (ho' : o < 4096) (hk' : k < 4096) :
    wblk m c t (ix2 q l) = warr m c (ix2 ⟨o, ho'⟩ ⟨k, hk'⟩) := by
  obtain ⟨-, -, e0, e1, -⟩ := idx_facts t
  unfold wblk iblk
  rw [View.read_apply]
  show V m c main_v23 _ = V m c main_v23 _
  congr 1
  funext a
  apply Fin.ext
  match a with
  | ⟨0, _⟩ => show win0_1.index t (0 : Fin 2) * 1024 + 1 * q.val = o; rw [e0]; omega
  | ⟨1, _⟩ => show win0_1.index t (1 : Fin 2) * 512 + 1 * l.val = k; rw [e1]; omega

/-- The bias block at point `t` reads the row at the block's offset. -/
theorem bblk_apply (c : Dev nD) (t : Fin cfg0.N) (q : Fin 1024) (o : ℕ) (ho : o = 1024 * (t.val / 8 % 4) + q.val) (ho' : o < 4096) :
    bblk m c t (ix2 (0 : Fin 1) q) = barr m c (ix2 (0 : Fin 1) ⟨o, ho'⟩) := by
  obtain ⟨-, -, -, -, e0, e1, -⟩ := idx_facts t
  unfold bblk iblk
  rw [View.read_apply]
  show V m c main_v25 _ = V m c main_v25 _
  congr 1
  funext a
  apply Fin.ext
  match a with
  | ⟨0, _⟩ => show win0_2.index t (0 : Fin 2) * 1 + 1 * 0 = 0; rw [e0]
  | ⟨1, _⟩ => show win0_2.index t (1 : Fin 2) * 1024 + 1 * q.val = o; rw [e1]; omega

/-! ## The partial sums, indexed by natural numbers -/

/-- The product X[r, l] * W[o, l], extended by zero outside the arrays (so that sums over ranges of naturals split). -/
def term (c : Dev nD) (r o l : ℕ) : EReal :=
  if h : r < 16384 ∧ o < 4096 ∧ l < 4096 then xarr m c (ix2 ⟨r, h.1⟩ ⟨l, h.2.2⟩) * warr m c (ix2 ⟨o, h.2.1⟩ ⟨l, h.2.2⟩) else 0

/-- The bias of column `o`, extended by zero. -/
def biasAt (c : Dev nD) (o : ℕ) : EReal := if h : o < 4096 then barr m c (ix2 (0 : Fin 1) ⟨o, h⟩) else 0

/-- One block's product at (p, q) is the sum of the next 512 terms. -/
theorem block_sum (c : Dev nD) (t : Fin cfg0.N) (p : Fin 2048) (q : Fin 1024) :
    ∑ l : Fin 512, xblk m c t (ix2 p l) * wblk m c t (ix2 q l)
      = ∑ l ∈ Finset.range 512, term m c (2048 * (t.val / 32) + p.val) (1024 * (t.val / 8 % 4) + q.val) (512 * (t.val % 8) + l) := by
  have hN : cfg0.N = 256 := N_0
  have ht := t.isLt
  have hp := p.isLt
  have hq := q.isLt
  rw [← Fin.sum_univ_eq_sum_range (fun l => term m c (2048 * (t.val / 32) + p.val) (1024 * (t.val / 8 % 4) + q.val) (512 * (t.val % 8) + l)) 512]
  refine Finset.sum_congr rfl fun l _ => ?_
  have hl := l.isLt
  have hr' : 2048 * (t.val / 32) + p.val < 16384 := by omega
  have ho' : 1024 * (t.val / 8 % 4) + q.val < 4096 := by omega
  have hk' : 512 * (t.val % 8) + l.val < 4096 := by omega
  rw [xblk_apply m c t p l _ _ rfl rfl hr' hk', wblk_apply m c t q l _ _ rfl rfl ho' hk']
  unfold term
  rw [dif_pos ⟨hr', ho', hk'⟩]

/-- THE INVARIANT: after point `n` the accumulator holds the partial sums over the first 512 (n % 8 + 1) columns. -/
theorem acc_eq (c : Dev nD) : ∀ (n : ℕ) (h : n < cfg0.N) (p : Fin 2048) (q : Fin 1024),
    (outsAt0 m c n h).2 (ix2 p q)
      = ∑ l ∈ Finset.range (512 * (n % 8 + 1)), term m c (2048 * (n / 32) + p.val) (1024 * (n / 8 % 4) + q.val) l := by
  intro n
  induction n using Nat.strong_induction_on with
  | _ n ih =>
    intro h p q
    have hN : cfg0.N = 256 := N_0
    by_cases h0 : n % 8 = 0
    · have h1 : ¬ n % 8 = 7 := by omega
      rw [outsAt0_A m c ⟨n, h⟩ h0 h1]
      dsimp only
      rw [acc_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
        (ms0_3 ⟨n, h⟩) (hs0_3 ⟨n, h⟩) scM0_0 (Memref.isWhole_whole _) _ _ (iblk m c 0 ⟨n, h⟩) (iblk m c 1 ⟨n, h⟩) (iblk m c 2 ⟨n, h⟩)]
      rw [pay2_apply, pay1_apply, zero_add]
      refine (block_sum m c ⟨n, h⟩ p q).trans ?_
      show ∑ l ∈ Finset.range 512, term m c (2048 * (n / 32) + p.val) (1024 * (n / 8 % 4) + q.val) (512 * (n % 8) + l) = _
      rw [h0]
      refine Finset.sum_congr rfl fun l _ => ?_
      rw [Nat.mul_zero, Nat.zero_add]
    · have hpos : 0 < n := by omega
      have hlt : n - 1 < n := by omega
      have e32 : (n - 1) / 32 = n / 32 := by omega
      have e8 : (n - 1) / 8 % 4 = n / 8 % 4 := by omega
      have ek : 512 * ((n - 1) % 8 + 1) = 512 * (n % 8) := by omega
      have hsplit : 512 * (n % 8 + 1) = 512 * (n % 8) + 512 := by omega
      have hprev := ih (n - 1) hlt (Nat.lt_of_le_of_lt (Nat.sub_le _ _) h) p q
      rw [e32, e8, ek] at hprev
      by_cases h1 : n % 8 = 7
      · rw [outsAt0_C m c ⟨n, h⟩ h0 h1]
        dsimp only
        rw [acc_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
          (ms0_3 ⟨n, h⟩) (hs0_3 ⟨n, h⟩) scM0_0 (Memref.isWhole_whole _) _ _ (iblk m c 0 ⟨n, h⟩) (iblk m c 1 ⟨n, h⟩) (iblk m c 2 ⟨n, h⟩)
          (outsAt0 m c (n - 1) (Nat.lt_of_le_of_lt (Nat.sub_le _ _) h)).2]
        rw [pay2_apply, hprev, hsplit, Finset.sum_range_add]
        exact congrArg (_ + ·) (block_sum m c ⟨n, h⟩ p q)
      · rw [outsAt0_B m c ⟨n, h⟩ h0 h1]
        dsimp only
        rw [acc_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
          (ms0_3 ⟨n, h⟩) (hs0_3 ⟨n, h⟩) scM0_0 (Memref.isWhole_whole _) _ _ (iblk m c 0 ⟨n, h⟩) (iblk m c 1 ⟨n, h⟩) (iblk m c 2 ⟨n, h⟩)
          (outsAt0 m c (n - 1) (Nat.lt_of_le_of_lt (Nat.sub_le _ _) h)).2]
        rw [pay2_apply, hprev, hsplit, Finset.sum_range_add]
        exact congrArg (_ + ·) (block_sum m c ⟨n, h⟩ p q)

/-! ## What the last point of each run writes back, and the result array -/

/-- The [16384, 4096] result: at (r, o) the full sum over the 4096 columns plus the bias of column o. -/
def kout (c : Dev nD) : Buf (Elt Ideal) ((c : Thread nD τ).loc main_v26) :=
  fun j => (∑ l ∈ Finset.range 4096, term m c (j 0).val (j 1).val l) + biasAt m c (j 1).val

/-- At a last point the output block is the new accumulator plus the bias row. -/
theorem out_eq (c : Dev nD) (t : Fin cfg0.N) (h0 : ¬t.val % 8 = 0) (h1 : t.val % 8 = 7) :
    (outsAt0 m c t.val t.isLt).1 = k0_pay3 (outsAt0 m c t.val t.isLt).2 (iblk m c 2 t) := by
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) scM0_0
      (Memref.isWhole_whole _) _ _ (iblk m c 0 t) (iblk m c 1 t) (iblk m c 2 t)
      (outsAt0 m c (t.val - 1) (Nat.lt_of_le_of_lt (Nat.sub_le _ _) t.isLt)).2,
    acc_C (F := Ideal) c (grid0.coords t) (ms0_0 t) (hs0_0 t) (ms0_1 t) (hs0_1 t) (ms0_2 t) (hs0_2 t) (ms0_3 t) (hs0_3 t) scM0_0
      (Memref.isWhole_whole _) _ _ (iblk m c 0 t) (iblk m c 1 t) (iblk m c 2 t)
      (outsAt0 m c (t.val - 1) (Nat.lt_of_le_of_lt (Nat.sub_le _ _) t.isLt)).2]

/-- WHAT A LAST POINT WRITES BACK is its block of `kout`. -/
theorem flushed_eq (c : Dev nD) (t : Fin cfg0.N) (hf : (cfg0.win 3).flush t = true) :
    (dats m 0 c).flushed 3 t = ((cfg0.win 3).blk t).view.read (Elt Ideal) (kout m c) := by
  have hN : cfg0.N = 256 := N_0
  have ht := t.isLt
  have h1 : t.val % 8 = 7 := (flush0_3 t).mp hf
  have h0 : ¬t.val % 8 = 0 := by omega
  obtain ⟨-, -, -, -, -, -, e0, e1⟩ := idx_facts t
  show (cfg0.win 3).cut (grid0.coords t) ((dats m 0 c).after 3 t) = _
  rw [after0_3, out_eq m c t h0 h1]
  funext j
  obtain ⟨p, q, rfl⟩ : ∃ (p : Fin 2048) (q : Fin 1024), j = ix2 p q := ⟨j 0, j 1, eq_ix2 j⟩
  have hp := p.isLt
  have hq := q.isLt
  show k0_pay3 (outsAt0 m c t.val t.isLt).2 (iblk m c 2 t) (ix2 p q)
    = (∑ l ∈ Finset.range 4096, term m c (win0_3.index t (0 : Fin 2) * 2048 + 1 * p.val) (win0_3.index t (1 : Fin 2) * 1024 + 1 * q.val) l)
      + biasAt m c (win0_3.index t (1 : Fin 2) * 1024 + 1 * q.val)
  rw [pay3_apply, acc_eq m c t.val t.isLt p q, e0, e1, h1]
  have ho' : 1024 * (t.val / 8 % 4) + q.val < 4096 := by omega
  have eb : iblk m c 2 t (ix2 (0 : Fin 1) q) = biasAt m c (t.val / 8 % 4 * 1024 + 1 * q.val) := by
    unfold biasAt
    rw [dif_pos (by omega)]
    exact bblk_apply m c t q _ (by omega) (by omega)
  rw [eb]
  have er : 2048 * (t.val / 32) + p.val = t.val / 32 * 2048 + 1 * p.val := by omega
  have eo : 1024 * (t.val / 8 % 4) + q.val = t.val / 8 % 4 * 1024 + 1 * q.val := by omega
  rw [er, eo]

/-- An index of the result is in point `t`'s block iff each coordinate is in the block's range. -/
theorem mem_blk (t : Fin cfg0.N) (i : S16384x4096.Idx) :
    i ∈ ((cfg0.win 3).blk t).view.set ↔ ∀ a : Fin 2, win0_3.index t a * S2048x1024.size a ≤ (i a).val ∧ (i a).val < win0_3.index t a * S2048x1024.size a + S2048x1024.size a := by
  show i ∈ ((View.whole main_v26).slice (win0_3.rect t)).set ↔ _
  rw [View.set_slice_whole, Rect.mem_set_unit]
  exact Iff.rfl

/-- Every index of the result is in the block of the last point of its (i, j) run. -/
theorem cover (i : S16384x4096.Idx) : ∃ t : Fin cfg0.N, (cfg0.win 3).flush t = true ∧ i ∈ ((cfg0.win 3).blk t).view.set := by
  have hN : cfg0.N = 256 := N_0
  have hi0 : (i 0).val < 16384 := (i 0).isLt
  have hi1 : (i 1).val < 4096 := (i 1).isLt
  let t : Fin cfg0.N := ⟨32 * ((i 0).val / 2048) + 8 * ((i 1).val / 1024) + 7, by omega⟩
  have htv : t.val = 32 * ((i 0).val / 2048) + 8 * ((i 1).val / 1024) + 7 := rfl
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 2048 ≤ (i 0).val ∧ (i 0).val < win0_3.index t (0 : Fin 2) * 2048 + 2048; rw [e0]; omega
  | ⟨1, _⟩ => show win0_3.index t (1 : Fin 2) * 1024 ≤ (i 1).val ∧ (i 1).val < win0_3.index t (1 : Fin 2) * 1024 + 1024; rw [e1]; omega

/-- So the result array ends holding `kout`. -/
theorem final (c : Dev nD) : (dats m 0 c).arrAt 3 cfg0.N = kout m c :=
  (dats m 0 c).arrAt_eq_of_cover 3 (kout m c) (flushed_eq m c) cover

/-! ## The host's reshape after the call, and the run -/

/-- The program's result: the [16384, 4096] array reshaped to [8, 2048, 4096]. -/
def kres (c : Dev nD) : Buf (Elt Ideal) ((c : Thread nD τ).loc main_v27) :=
  shapeCast S8x2048x4096 (kout m c) shapeCasts_S16384x4096_S8x2048x4096

/-- What the lines after the call leave in the result buffer. -/
theorem tail_eq (c : Dev nD) : Pipeline.afterTail₀ cfgs (dats m) 0 (V0 m) [hostOps1] c main_v27 = kres m c := by
  unfold Pipeline.afterTail₀
  show StableHlo.after hostOps1 _ (Proc.devRef .tc main_v27) = _
  after_results
  unfold kres
  exact congrArg (fun y => shapeCast S8x2048x4096 y shapeCasts_S16384x4096_S8x2048x4096)
    ((Pipeline.withArrays_arr spec0 launch0.win.arr_inj c _ _ 3).trans (final m c))

/-- THE RUN, READ: the result buffer ends at `kres`, the seven arguments as launched. -/
theorem run : θ_run defs (onTc (τ := τ) (main (F := Ideal))) ⟨m, fun _ => 0, ρ⟩ fun r => ∀ c : Dev nD,
      r.2.mem ((c.tc : Thread nD τ).loc main_v27) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v27 (Pipeline.mem_restRefs_of main_v27 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c))⟩)
    (run_main m ρ)

/-! ## The result at an index, in terms of the program's arguments -/

open Cert.Q4

theorem xarr_eq (c : Dev nD) : xarr m c = kX (F := Ideal) (m ((c : Thread nD τ).loc main_arg0)) := V_x m c
theorem warr_eq (c : Dev nD) : warr m c = kW (F := Ideal) (m ((c : Thread nD τ).loc main_arg1)) (m ((c : Thread nD τ).loc main_arg2))
    (m ((c : Thread nD τ).loc main_arg3)) (m ((c : Thread nD τ).loc main_arg5)) (m ((c : Thread nD τ).loc main_arg6)) := V_w m c
theorem barr_eq (c : Dev nD) : barr m c = kB (F := Ideal) (m ((c : Thread nD τ).loc main_arg4)) := V_b m c

/-- THE KERNEL'S RESULT at (b, s, o) is the specification's folded form of the seven arguments. -/
theorem kres_apply (c : Dev nD) (b : Fin 8) (s : Fin 2048) (o : Fin 4096) :
    kres m c (ix3 b s o)
      = outFold (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) b s o := by
  have hb := b.isLt
  have hs := s.isLt
  have ho := o.isLt
  have hr : 2048 * b.val + s.val < 16384 := by omega
  unfold kres
  rw [shapeCast_apply _ shapeCasts_S16384x4096_S8x2048x4096 (ix3 b s o) (ix2 (⟨2048 * b.val + s.val, hr⟩ : Fin 16384) o)
    (by rewrite [Shape.rowMajor_val_two, Shape.rowMajor_val_three]
        show (2048 * b.val + s.val) * 4096 + o.val = (b.val * 2048 + s.val) * 4096 + o.val
        omega)]
  unfold kout outFold
  show (∑ l ∈ Finset.range 4096, term m c (2048 * b.val + s.val) o.val l) + biasAt m c o.val = _
  rw [← Fin.sum_univ_eq_sum_range (fun l => term m c (2048 * b.val + s.val) o.val l) 4096]
  congr 1
  · refine Finset.sum_congr rfl fun l _ => ?_
    have hl := l.isLt
    unfold term
    rw [dif_pos ⟨hr, ho, hl⟩]
    rw [xarr_eq, warr_eq, kX_apply, kW_apply]
    congr 2
    funext a
    match a with
    | ⟨0, _⟩ => exact Fin.ext (show (2048 * b.val + s.val) / 2048 = b.val by omega)
    | ⟨1, _⟩ => exact Fin.ext (show (2048 * b.val + s.val) % 2048 = s.val by omega)
    | ⟨2, _⟩ => rfl
  · unfold biasAt
    rw [dif_pos ho]
    rw [barr_eq, kB_apply]

end Cert.Q4K

end
-- ==== Proof.lean ====
/-
  An int4-quantized linear layer with a sparse high-precision correction, kernel against reference.

  Both programs dequantize the packed 4-bit codes into a weight  deq[o,l] = (code[o,l] - zp[o,l/128]) * max(sc[o,l/128], eps).
  The kernel folds the correction of the 128 outlier columns into the weight through a one-hot matrix,
      W[o,l] = deq[o,l] + sum_h hw[o,h] * [idx[h] = l],
  and computes  out[b,s,o] = sum_l x[b,s,l] * W[o,l] + bias[o]  by a matrix product tiled over a (8, 4, 8) grid: the
  innermost axis walks the 4096 columns in 8 blocks of 512, accumulating in a scratch block that is zeroed at the first
  block and written out, with the bias added, after the last.  The reference computes
      out[b,s,o] = (sum_l x[b,s,l] * deq[o,l] + bias[o]) + sum_h x[b,s,col(idx[h])] * hw[o,h],
  gathering the outlier columns of x (a negative column number wrapped by 4096, then clamped into [0, 4095]).

  Over the extended reals the blockwise accumulation is the plain sum over the 4096 columns (addition is associative and
  0 + a = a), a change of float format is the identity, and the matrix unit's product is the host's contraction.  The
  two results agree once x is distributed over W's two summands and the double sum is exchanged; that uses that every
  factor is a real number (finiteness of the float inputs) and that each outlier column number lies in [0, 4096), where
  the one-hot row has its one at idx[h] and col is the identity.  Outside that range the reference reads a clamped or
  wrapped column while the one-hot row is zero, so the range is part of the precondition.

  The frames of the two kernel programs are the generated ones; the reference's frame is its generated run with the
  result dropped; the idealization rewrote nothing.
-/
import proofs.«425230_j13048110645378_3_alg».proof.Defs
import proofs.«425230_j13048110645378_3_alg».proof.Proof.Gen.Kernel
import proofs.«425230_j13048110645378_3_alg».proof.Proof.Gen.Kernel.Skeleton
import proofs.«425230_j13048110645378_3_alg».proof.Proof.Gen.Kernel.Launch
import proofs.«425230_j13048110645378_3_alg».proof.Proof.Gen.Kernel.Points
import proofs.«425230_j13048110645378_3_alg».proof.Proof.Gen.Kernel.Frame
import proofs.«425230_j13048110645378_3_alg».proof.Proof.Gen.KernelIdeal
import proofs.«425230_j13048110645378_3_alg».proof.Proof.Gen.KernelIdeal.Skeleton
import proofs.«425230_j13048110645378_3_alg».proof.Proof.Gen.KernelIdeal.Launch
import proofs.«425230_j13048110645378_3_alg».proof.Proof.Gen.KernelIdeal.Points
import proofs.«425230_j13048110645378_3_alg».proof.Proof.Gen.KernelIdeal.Frame
import proofs.«425230_j13048110645378_3_alg».proof.Proof.Gen.ReferenceIdeal
import proofs.«425230_j13048110645378_3_alg».proof.Proof.Gen.ReferenceIdeal.Run
import proofs.«425230_j13048110645378_3_alg».proof.Proof.Gen.ReferenceIdeal.Read
import proofs.«425230_j13048110645378_3_alg».proof.Proof.Gen.Pre_finite_inputs
import proofs.«425230_j13048110645378_3_alg».proof.Proof.Law
import proofs.«425230_j13048110645378_3_alg».proof.Proof.PreFacts
import proofs.«425230_j13048110645378_3_alg».proof.Proof.RefValue
import proofs.«425230_j13048110645378_3_alg».proof.Proof.KAcc
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the seven arguments, under the precondition, the kernel's result array ends at the folded
    form of the arguments and the reference's at the added form: equal, index by index. -/
theorem algebraic : Cert.algebraic_KernelIdeal_ReferenceIdeal := by
  intro m ρ m' ρ' hpre hagree
  refine ⟨fun c => Cert.Q4K.kres m c, Cert.Q4K.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  obtain ⟨hx, hsc, hzp, -, hhw, hidx⟩ := Cert.Q4.pre_decode _ _ _ _ _ _ _ (hpre c)
  rw [Cert.ReferenceIdeal.Read.val_main_v33_eq, e0, e1, e2, e3, e4, e5, e6]
  funext j
  obtain ⟨b, s, o, rfl⟩ : ∃ (b : Fin 8) (s : Fin 2048) (o : Fin 4096), j = ix3 b s o := ⟨j 0, j 1, j 2, eq_ix3 j⟩
  rw [Cert.Q4.ref_value]
  show _ = Cert.Q4K.kres m c (ix3 b s o)
  rw [Cert.Q4K.kres_apply]
  exact (Cert.Q4.outFold_eq_outAdd _ _ _ _ _ _ _ hx hsc hzp hhw (fun h => hidx (ix1 h)) b s o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
